-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024 : Shape := ⟨2, ![16, 1024]⟩
abbrev S8192x64 : Shape := ⟨2, ![8192, 64]⟩
abbrev S4x65536x32 : Shape := ⟨3, ![4, 65536, 32]⟩
abbrev S192x1024 : Shape := ⟨2, ![192, 1024]⟩
abbrev S1024 : Shape := ⟨1, ![1024]⟩
abbrev S1024x8192 : Shape := ⟨2, ![1024, 8192]⟩
abbrev S8192 : Shape := ⟨1, ![8192]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S4x65536x32 : S_.BroadcastsInDim S4x65536x32 (![] : Fin 0 → Fin S4x65536x32.rank)
  reducesTo_S4x65536x32_S_d0_1_2 : S4x65536x32.ReducesTo [0, 1, 2] S_
  bcast_S_S192x1024 : S_.BroadcastsInDim S192x1024 (![] : Fin 0 → Fin S192x1024.rank)
  reducesTo_S192x1024_S_d0_1 : S192x1024.ReducesTo [0, 1] S_
  bcast_S_S1024 : S_.BroadcastsInDim S1024 (![] : Fin 0 → Fin S1024.rank)
  reducesTo_S1024_S_d0 : S1024.ReducesTo [0] S_
  bcast_S_S1024x8192 : S_.BroadcastsInDim S1024x8192 (![] : Fin 0 → Fin S1024x8192.rank)
  reducesTo_S1024x8192_S_d0_1 : S1024x8192.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg5 : FVec F S1024x8192 .f32) (main_arg6 : FVec F S8192 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x8192 .f32 := Host.absf main_arg5
  let main_cst_6 : FVec F S_ .f32 := constant S_ .f32 0x7F800000#32
  let main_v20 : FVec F S1024x8192 .f32 := broadcastInDim S1024x8192 ![] bcast_S_S1024x8192 main_cst_6
  let main_v21 : IVec S1024x8192 1 := cmpf .olt main_v19 main_v20
  let main_c_7 : IVec S_ 1 := constantI S_ 1 1#1
  let main_v22 : IVec S_ 1 := (fun x v => Host.reduce IntOp.andi x v reducesTo_S1024x8192_S_d0_1 h_S_) main_v21 main_c_7
  let main_v23 : IVec S_ 1 := andi main_v18 main_v22
  let main_v24 : FVec F S8192 .f32 := Host.absf main_arg6
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  main_v28

def fn {F : FTy → Type} [FloatOps F] (main_arg0 : IVec S16x1024 32) (main_arg1 : FVec F S8192x64 .f32) (main_arg2 : FVec F S4x65536x32 .f32) (main_arg3 : FVec F S192x1024 .f32) (main_arg4 : FVec F S1024 .f32) (main_arg5 : FVec F S1024x8192 .f32) (main_arg6 : FVec F S8192 .f32) : IVec S_ 1 :=
  let main_v0 : FVec F S8192x64 .f32 := Host.absf main_arg1
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S4x65536x32 .f32 := Host.absf main_arg2
  let main_cst_0 : FVec F S_ .f32 := constant S_ .f32 0x7F800000#32
  let main_v5 : FVec F S4x65536x32 .f32 := broadcastInDim S4x65536x32 ![] bcast_S_S4x65536x32 main_cst_0
  let main_v6 : IVec S4x65536x32 1 := cmpf .olt main_v4 main_v5
  let main_c_1 : IVec S_ 1 := constantI S_ 1 1#1
  let main_v7 : IVec S_ 1 := (fun x v => Host.reduce IntOp.andi x v reducesTo_S4x65536x32_S_d0_1_2 h_S_) main_v6 main_c_1
  let main_v8 : IVec S_ 1 := andi main_v3 main_v7
  let main_v9 : FVec F S192x1024 .f32 := Host.absf main_arg3
  let main_cst_2 : FVec F S_ .f32 := constant S_ .f32 0x7F800000#32
  let main_v10 : FVec F S192x1024 .f32 := broadcastInDim S192x1024 ![] bcast_S_S192x1024 main_cst_2
  let main_v11 : IVec S192x1024 1 := cmpf .olt main_v9 main_v10
  let main_c_3 : IVec S_ 1 := constantI S_ 1 1#1
  let main_v12 : IVec S_ 1 := (fun x v => Host.reduce IntOp.andi x v reducesTo_S192x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg5 main_arg6 main_v13 main_v16
-- ==== Kernel.lean ====
abbrev S16x1024 : Shape := ⟨2, ![16, 1024]⟩
abbrev S8192x64 : Shape := ⟨2, ![8192, 64]⟩
abbrev S4x65536x32 : Shape := ⟨3, ![4, 65536, 32]⟩
abbrev S192x1024 : Shape := ⟨2, ![192, 1024]⟩
abbrev S1024 : Shape := ⟨1, ![1024]⟩
abbrev S1024x8192 : Shape := ⟨2, ![1024, 8192]⟩
abbrev S8192 : Shape := ⟨1, ![8192]⟩
abbrev S_ : Shape := ⟨0, ![]⟩
abbrev S16x1024x1 : Shape := ⟨3, ![16, 1024, 1]⟩
abbrev S16x1024x64 : Shape := ⟨3, ![16, 1024, 64]⟩
abbrev S16x1023 : Shape := ⟨2, ![16, 1023]⟩
abbrev S16x1022 : Shape := ⟨2, ![16, 1022]⟩
abbrev S1x65536x32 : Shape := ⟨3, ![1, 65536, 32]⟩
abbrev S65536x32 : Shape := ⟨2, ![65536, 32]⟩
abbrev S16x1024x32 : Shape := ⟨3, ![16, 1024, 32]⟩
abbrev S16x1021 : Shape := ⟨2, ![16, 1021]⟩
abbrev S16x1024x192 : Shape := ⟨3, ![16, 1024, 192]⟩
abbrev S16384x192 : Shape := ⟨2, ![16384, 192]⟩
abbrev S1x1024 : Shape := ⟨2, ![1, 1024]⟩
abbrev S1x8192 : Shape := ⟨2, ![1, 8192]⟩
abbrev S16384x8192 : Shape := ⟨2, ![16384, 8192]⟩
abbrev S256x192 : Shape := ⟨2, ![256, 192]⟩
abbrev S256x8192 : Shape := ⟨2, ![256, 8192]⟩
abbrev S256x1024 : Shape := ⟨2, ![256, 1024]⟩
abbrev S1024x1024 : Shape := ⟨2, ![1024, 1024]⟩
abbrev S16x1024x8192 : Shape := ⟨3, ![16, 1024, 8192]⟩

abbrev nBuf : Space → Nat
  | .hbm => 165
  | .vmem => 8
  | .smem => 0
  | _ => 0

abbrev hbmTy0_0 (i : Nat) : BufTy := match i % 128 with
  | 0 => ⟨S16x1024, .i32⟩
  | 1 => ⟨S8192x64, .f32⟩
  | 2 => ⟨S4x65536x32, .f32⟩
  | 3 => ⟨S192x1024, .f32⟩
  | 4 => ⟨S1024, .f32⟩
  | 5 => ⟨S1024x8192, .f32⟩
  | 6 => ⟨S8192, .f32⟩
  | 7 => ⟨S16x1024, .i32⟩
  | 8 => ⟨S_, .i32⟩
  | 9 => ⟨S16x1024, .i32⟩
  | 10 => ⟨S16x1024, .i1⟩
  | 11 => ⟨S_, .i32⟩
  | 12 => ⟨S16x1024, .i32⟩
  | 13 => ⟨S16x1024, .i32⟩
  | 14 => ⟨S16x1024, .i32⟩
  | 15 => ⟨S16x1024x1, .i32⟩
  | 16 => ⟨S16x1024x64, .f32⟩
  | 17 => ⟨S_, .i32⟩
  | 18 => ⟨S16x1024, .i32⟩
  | 19 => ⟨S16x1023, .i32⟩
  | 20 => ⟨S_, .i32⟩
  | 21 => ⟨S_, .i32⟩
  | 22 => ⟨S16x1024, .i32⟩
  | 23 => ⟨S_, .i32⟩
  | 24 => ⟨S16x1024, .i32⟩
  | 25 => ⟨S16x1024, .i32⟩
  | 26 => ⟨S16x1024, .i32⟩
  | 27 => ⟨S16x1022, .i32⟩
  | 28 => ⟨S_, .i32⟩
  | 29 => ⟨S_, .i32⟩
  | 30 => ⟨S16x1024, .i32⟩
  | 31 => ⟨S_, .i32⟩
  | 32 => ⟨S16x1024, .i32⟩
  | 33 => ⟨S16x1024, .i32⟩
  | 34 => ⟨S16x1024, .i32⟩
  | 35 => ⟨S_, .i32⟩
  | 36 => ⟨S16x1024, .i32⟩
  | 37 => ⟨S16x1024, .i32⟩
  | 38 => ⟨S16x1024, .i32⟩
  | 39 => ⟨S1x65536x32, .f32⟩
  | 40 => ⟨S65536x32, .f32⟩
  | 41 => ⟨S_, .i32⟩
  | 42 => ⟨S16x1024, .i32⟩
  | 43 => ⟨S16x1024, .i1⟩
  | 44 => ⟨S_, .i32⟩
  | 45 => ⟨S16x1024, .i32⟩
  | 46 => ⟨S16x1024, .i32⟩
  | 47 => ⟨S16x1024, .i32⟩
  | 48 => ⟨S16x1024x1, .i32⟩
  | 49 => ⟨S16x1024x32, .f32⟩
  | 50 => ⟨S_, .i32⟩
  | 51 => ⟨S16x1024, .i32⟩
  | 52 => ⟨S16x1023, .i32⟩
  | 53 => ⟨S_, .i32⟩
  | 54 => ⟨S_, .i32⟩
  | 55 => ⟨S16x1024, .i32⟩
  | 56 => ⟨S_, .i32⟩
  | 57 => ⟨S16x1024, .i32⟩
  | 58 => ⟨S16x1024, .i32⟩
  | 59 => ⟨S16x1024, .i32⟩
  | 60 => ⟨S16x1022, .i32⟩
  | 61 => ⟨S_, .i32⟩
  | 62 => ⟨S_, .i32⟩
  | 63 => ⟨S16x1024, .i32⟩
  | 64 => ⟨S_, .i32⟩
  | 65 => ⟨S16x1024, .i32⟩
  | 66 => ⟨S16x1024, .i32⟩
  | 67 => ⟨S16x1024, .i32⟩
  | 68 => ⟨S16x1021, .i32⟩
  | 69 => ⟨S_, .i32⟩
  | 70 => ⟨S_, .i32⟩
  | 71 => ⟨S16x1024, .i32⟩
  | 72 => ⟨S_, .i32⟩
  | 73 => ⟨S16x1024, .i32⟩
  | 74 => ⟨S16x1024, .i32⟩
  | 75 => ⟨S16x1024, .i32⟩
  | 76 => ⟨S_, .i32⟩
  | 77 => ⟨S16x1024, .i32⟩
  | 78 => ⟨S16x1024, .i32⟩
  | 79 => ⟨S16x1024, .i32⟩
  | 80 => ⟨S1x65536x32, .f32⟩
  | 81 => ⟨S65536x32, .f32⟩
  | 82 => ⟨S_, .i32⟩
  | 83 => ⟨S16x1024, .i32⟩
  | 84 => ⟨S16x1024, .i1⟩
  | 85 => ⟨S_, .i32⟩
  | 86 => ⟨S16x1024, .i32⟩
  | 87 => ⟨S16x1024, .i32⟩
  | 88 => ⟨S16x1024, .i32⟩
  | 89 => ⟨S16x1024x1, .i32⟩
  | 90 => ⟨S16x1024x32, .f32⟩
  | 91 => ⟨S_, .i32⟩
  | 92 => ⟨S16x1024, .i32⟩
  | 93 => ⟨S16x1023, .i32⟩
  | 94 => ⟨S_, .i32⟩
  | 95 => ⟨S_, .i32⟩
  | 96 => ⟨S16x1024, .i32⟩
  | 97 => ⟨S_, .i32⟩
  | 98 => ⟨S16x1024, .i32⟩
  | 99 => ⟨S16x1024, .i32⟩
  | 100 => ⟨S16x1024, .i32⟩
  | 101 => ⟨S16x1021, .i32⟩
  | 102 => ⟨S_, .i32⟩
  | 103 => ⟨S_, .i32⟩
  | 104 => ⟨S16x1024, .i32⟩
  | 105 => ⟨S_, .i32⟩
  | 106 => ⟨S16x1024, .i32⟩
  | 107 => ⟨S16x1024, .i32⟩
  | 108 => ⟨S16x1024, .i32⟩
  | 109 => ⟨S_, .i32⟩
  | 110 => ⟨S16x1024, .i32⟩
  | 111 => ⟨S16x1024, .i32⟩
  | 112 => ⟨S16x1024, .i32⟩
  | 113 => ⟨S1x65536x32, .f32⟩
  | 114 => ⟨S65536x32, .f32⟩
  | 115 => ⟨S_, .i32⟩
  | 116 => ⟨S16x1024, .i32⟩
  | 117 => ⟨S16x1024, .i1⟩
  | 118 => ⟨S_, .i32⟩
  | 119 => ⟨S16x1024, .i32⟩
  | 120 => ⟨S16x1024, .i32⟩
  | 121 => ⟨S16x1024, .i32⟩
  | 122 => ⟨S16x1024x1, .i32⟩
  | 123 => ⟨S16x1024x32, .f32⟩
  | 124 => ⟨S_, .i32⟩
  | 125 => ⟨S16x1024, .i32⟩
  | 126 => ⟨S16x1022, .i32⟩
  | 127 => ⟨S_, .i32⟩
  | _ => ⟨S16x1024, .i32⟩

abbrev hbmTy0_1 (i : Nat) : BufTy := match i % 128 with
  | 0 => ⟨S_, .i32⟩
  | 1 => ⟨S16x1024, .i32⟩
  | 2 => ⟨S_, .i32⟩
  | 3 => ⟨S16x1024, .i32⟩
  | 4 => ⟨S16x1024, .i32⟩
  | 5 => ⟨S16x1024, .i32⟩
  | 6 => ⟨S16x1021, .i32⟩
  | 7 => ⟨S_, .i32⟩
  | 8 => ⟨S_, .i32⟩
  | 9 => ⟨S16x1024, .i32⟩
  | 10 => ⟨S_, .i32⟩
  | 11 => ⟨S16x1024, .i32⟩
  | 12 => ⟨S16x1024, .i32⟩
  | 13 => ⟨S16x1024, .i32⟩
  | 14 => ⟨S_, .i32⟩
  | 15 => ⟨S16x1024, .i32⟩
  | 16 => ⟨S16x1024, .i32⟩
  | 17 => ⟨S16x1024, .i32⟩
  | 18 => ⟨S1x65536x32, .f32⟩
  | 19 => ⟨S65536x32, .f32⟩
  | 20 => ⟨S_, .i32⟩
  | 21 => ⟨S16x1024, .i32⟩
  | 22 => ⟨S16x1024, .i1⟩
  | 23 => ⟨S_, .i32⟩
  | 24 => ⟨S16x1024, .i32⟩
  | 25 => ⟨S16x1024, .i32⟩
  | 26 => ⟨S16x1024, .i32⟩
  | 27 => ⟨S16x1024x1, .i32⟩
  | 28 => ⟨S16x1024x32, .f32⟩
  | 29 => ⟨S16x1024x192, .f32⟩
  | 30 => ⟨S16384x192, .f32⟩
  | 31 => ⟨S192x1024, .bf16⟩
  | 32 => ⟨S1024x8192, .bf16⟩
  | 33 => ⟨S1x1024, .f32⟩
  | 34 => ⟨S1x8192, .f32⟩
  | 35 => ⟨S16384x8192, .f32⟩
  | 36 => ⟨S16x1024x8192, .f32⟩
  | _ => ⟨S16x1024, .i32⟩

abbrev hbmTy (i : Nat) : BufTy := match i / 128 with
  | 0 => hbmTy0_0 i
  | 1 => hbmTy0_1 i
  | _ => ⟨S16x1024, .i32⟩

abbrev bufTy : (tb : Table) → Fin (tcTables nBuf tb) → BufTy
  | .hbm, ⟨i, _⟩ => hbmTy i
  | .local _ .vmem, ⟨0, _⟩ => ⟨S256x192, .f32⟩
  | .local _ .vmem, ⟨1, _⟩ => ⟨S256x192, .f32⟩
  | .local _ .vmem, ⟨2, _⟩ => ⟨S192x1024, .bf16⟩
  | .local _ .vmem, ⟨3, _⟩ => ⟨S1x1024, .f32⟩
  | .local _ .vmem, ⟨4, _⟩ => ⟨S1024x8192, .bf16⟩
  | .local _ .vmem, ⟨5, _⟩ => ⟨S1x8192, .f32⟩
  | .local _ .vmem, ⟨6, _⟩ => ⟨S256x8192, .f32⟩
  | .local _ .vmem, ⟨7, _⟩ => ⟨S256x8192, .f32⟩
  | _, _ => ⟨S16x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_call0_v0 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_call1_v0 : Ref sig .tc := ⟨.hbm, 29, rfl⟩
abbrev main_v15 : Ref sig .tc := ⟨.hbm, 30, rfl⟩
abbrev main_c_5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_6 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_7 : Ref sig .tc := ⟨.hbm, 41, rfl⟩
abbrev main_v24 : Ref sig .tc := ⟨.hbm, 42, rfl⟩
abbrev main_v25 : Ref sig .tc := ⟨.hbm, 43, rfl⟩
abbrev main_c_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_9 : Ref sig .tc := ⟨.hbm, 50, rfl⟩
abbrev main_v31 : Ref sig .tc := ⟨.hbm, 51, rfl⟩
abbrev main_v32 : Ref sig .tc := ⟨.hbm, 52, rfl⟩
abbrev main_c_10 : Ref sig .tc := ⟨.hbm, 53, rfl⟩
abbrev main_call2_v0 : Ref sig .tc := ⟨.hbm, 54, rfl⟩
abbrev main_v33 : Ref sig .tc := ⟨.hbm, 55, rfl⟩
abbrev main_c_11 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_12 : Ref sig .tc := ⟨.hbm, 61, rfl⟩
abbrev main_call3_v0 : Ref sig .tc := ⟨.hbm, 62, rfl⟩
abbrev main_v38 : Ref sig .tc := ⟨.hbm, 63, rfl⟩
abbrev main_c_13 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_14 : Ref sig .tc := ⟨.hbm, 69, rfl⟩
abbrev main_call4_v0 : Ref sig .tc := ⟨.hbm, 70, rfl⟩
abbrev main_v43 : Ref sig .tc := ⟨.hbm, 71, rfl⟩
abbrev main_c_15 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_c_16 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_17 : Ref sig .tc := ⟨.hbm, 82, rfl⟩
abbrev main_v52 : Ref sig .tc := ⟨.hbm, 83, rfl⟩
abbrev main_v53 : Ref sig .tc := ⟨.hbm, 84, rfl⟩
abbrev main_c_18 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_c_19 : Ref sig .tc := ⟨.hbm, 91, rfl⟩
abbrev main_v59 : Ref sig .tc := ⟨.hbm, 92, rfl⟩
abbrev main_v60 : Ref sig .tc := ⟨.hbm, 93, rfl⟩
abbrev main_c_20 : Ref sig .tc := ⟨.hbm, 94, rfl⟩
abbrev main_call5_v0 : Ref sig .tc := ⟨.hbm, 95, rfl⟩
abbrev main_v61 : Ref sig .tc := ⟨.hbm, 96, rfl⟩
abbrev main_c_21 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_c_22 : Ref sig .tc := ⟨.hbm, 102, rfl⟩
abbrev main_call6_v0 : Ref sig .tc := ⟨.hbm, 103, rfl⟩
abbrev main_v66 : Ref sig .tc := ⟨.hbm, 104, rfl⟩
abbrev main_c_23 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_c_24 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_c_25 : Ref sig .tc := ⟨.hbm, 115, rfl⟩
abbrev main_v75 : Ref sig .tc := ⟨.hbm, 116, rfl⟩
abbrev main_v76 : Ref sig .tc := ⟨.hbm, 117, rfl⟩
abbrev main_c_26 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_c_27 : Ref sig .tc := ⟨.hbm, 124, rfl⟩
abbrev main_v82 : Ref sig .tc := ⟨.hbm, 125, rfl⟩
abbrev main_v83 : Ref sig .tc := ⟨.hbm, 126, rfl⟩
abbrev main_c_28 : Ref sig .tc := ⟨.hbm, 127, rfl⟩
abbrev main_call7_v0 : Ref sig .tc := ⟨.hbm, 128, rfl⟩
abbrev main_v84 : Ref sig .tc := ⟨.hbm, 129, rfl⟩
abbrev main_c_29 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_c_30 : Ref sig .tc := ⟨.hbm, 135, rfl⟩
abbrev main_call8_v0 : Ref sig .tc := ⟨.hbm, 136, rfl⟩
abbrev main_v89 : Ref sig .tc := ⟨.hbm, 137, rfl⟩
abbrev main_c_31 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_c_32 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_c_33 : Ref sig .tc := ⟨.hbm, 148, rfl⟩
abbrev main_v98 : Ref sig .tc := ⟨.hbm, 149, rfl⟩
abbrev main_v99 : Ref sig .tc := ⟨.hbm, 150, rfl⟩
abbrev main_c_34 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v13 : BitVec 32 := Scalar.addi c0_i32 c8_i32
  let c1_i32 : BitVec 32 := 1#32
  ⟨c0_i32, v13, c1_i32⟩
def k0_mult1 (k0_t1 : Fin k0_t1_loop.trips) : BitVec 32 :=
  let c0_i32_8 : BitVec 32 := 0#32
  let c0_i32 : BitVec 32 := 0#32
  let c1_i32 : BitVec 32 := 1#32
  let arg7 : BitVec 32 := Scf.iv c0_i32 c1_i32 k0_t1
  let c1_i32_7 : BitVec 32 := 1#32
  let v14 : BitVec 32 := Scalar.muli arg7 c1_i32_7
  let v15 : BitVec 32 := Scalar.addi c0_i32_8 v14
  let c1024_i32 : BitVec 32 := 1024#32
  let v16 : BitVec 32 := Scalar.muli v15 c1024_i32
  v16
def k0_off1 (k0_t1 : Fin k0_t1_loop.trips) : Fin 2 → Nat :=
  let c0_9 : Index := 0#32
  let c0_i32_8 : BitVec 32 := 0#32
  let c0_i32 : BitVec 32 := 0#32
  let c1_i32 : BitVec 32 := 1#32
  let arg7 : BitVec 32 := Scf.iv c0_i32 c1_i32 k0_t1
  let c1_i32_7 : BitVec 32 := 1#32
  let v14 : BitVec 32 := Scalar.muli arg7 c1_i32_7
  let v15 : BitVec 32 := Scalar.addi c0_i32_8 v14
  let c1024_i32 : BitVec 32 := 1024#32
  let v16 : BitVec 32 := Scalar.muli v15 c1024_i32
  let v17 : BitVec 32 := v16
  let v18 : Index := Scalar.indexCast v17
  ![0, v18.toNat]
def k0_off2 (k0_t1 : Fin k0_t1_loop.trips) : Fin 2 → Nat :=
  let c0_10 : Index := 0#32
  let c0_i32_8 : BitVec 32 := 0#32
  let c0_i32 : BitVec 32 := 0#32
  let c1_i32 : BitVec 32 := 1#32
  let arg7 : BitVec 32 := Scf.iv c0_i32 c1_i32 k0_t1
  let c1_i32_7 : BitVec 32 := 1#32
  let v14 : BitVec 32 := Scalar.muli arg7 c1_i32_7
  let v15 : BitVec 32 := Scalar.addi c0_i32_8 v14
  let c1024_i32 : BitVec 32 := 1024#32
  let v16 : BitVec 32 := Scalar.muli v15 c1024_i32
  let v17 : BitVec 32 := v16
  let v21 : Index := Scalar.indexCast v17
  ![0, v21.toNat]
def k0_off3 (k0_t1 : Fin k0_t1_loop.trips) : Fin 2 → Nat :=
  let c0_12 : Index := 0#32
  let c0_i32_8 : BitVec 32 := 0#32
  let c0_i32 : BitVec 32 := 0#32
  let c1_i32 : BitVec 32 := 1#32
  let arg7 : BitVec 32 := Scf.iv c0_i32 c1_i32 k0_t1
  let c1_i32_7 : BitVec 32 := 1#32
  let v14 : BitVec 32 := Scalar.muli arg7 c1_i32_7
  let v15 : BitVec 32 := Scalar.addi c0_i32_8 v14
  let c1024_i32 : BitVec 32 := 1024#32
  let v16 : BitVec 32 := Scalar.muli v15 c1024_i32
  let v17 : BitVec 32 := v16
  let v27 : Index := Scalar.indexCast v17
  ![0, v27.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  slices_S16x1024_S16x1023_0_0 : S16x1024.Slices ![0, 0] S16x1023
  pads_S16x1023_S16x1024_000_100 : S16x1023.Pads (![0, 1] : Fin 2 → Nat) ![0, 0] ![0, 0] S16x1024
  h_S_ : 0 < S_.numel
  slices_S16x1024_S16x1022_0_0 : S16x1024.Slices ![0, 0] S16x1022
  pads_S16x1022_S16x1024_000_200 : S16x1022.Pads (![0, 2] : Fin 2 → Nat) ![0, 0] ![0, 0] S16x1024
  slices_S4x65536x32_S1x65536x32_0_0_0 : S4x65536x32.Slices ![0, 0, 0] S1x65536x32
  shapeCasts_S1x65536x32_S65536x32 : S1x65536x32.ShapeCasts S65536x32
  slices_S16x1024_S16x1021_0_0 : S16x1024.Slices ![0, 0] S16x1021
  pads_S16x1021_S16x1024_000_300 : S16x1021.Pads (![0, 3] : Fin 2 → Nat) ![0, 0] ![0, 0] S16x1024
  slices_S4x65536x32_S1x65536x32_1_0_0 : S4x65536x32.Slices ![1, 0, 0] S1x65536x32
  slices_S4x65536x32_S1x65536x32_2_0_0 : S4x65536x32.Slices ![2, 0, 0] S1x65536x32
  slices_S4x65536x32_S1x65536x32_3_0_0 : S4x65536x32.Slices ![3, 0, 0] S1x65536x32
  concatenates_S16x1024x64_S16x1024x32_S16x1024x32_S16x1024x32_S16x1024x32_S16x1024x192_d2 : Shape.Concatenates [S16x1024x64, S16x1024x32, S16x1024x32, S16x1024x32, S16x1024x32] S16x1024x192 2
  shapeCasts_S16x1024x192_S16384x192 : S16x1024x192.ShapeCasts S16384x192
  bitsLt_bf16_f32 : FTy.bits .bf16 < FTy.bits .f32
  shapeCasts_S1024_S1x1024 : S1024.ShapeCasts S1x1024
  shapeCasts_S8192_S1x8192 : S8192.ShapeCasts S1x8192
  inb_S256x192_S256x192_0_0 : ∀ a, (![0, 0] : Fin 2 → Nat) a + S256x192.size a ≤ S256x192.size a
  h_S256x192 : 0 < S256x192.numel
  shapeCasts_S256x192_S256x192 : S256x192.ShapeCasts S256x192
  inb_S192x1024_S192x1024_0_0 : ∀ a, (![0, 0] : Fin 2 → Nat) a + S192x1024.size a ≤ S192x1024.size a
  h_S192x1024 : 0 < S192x1024.numel
  shapeCasts_S192x1024_S192x1024 : S192x1024.ShapeCasts S192x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  h_S1024x1024 : 0 < S1024x1024.numel
  shapeCasts_S1024x1024_S1024x1024 : S1024x1024.ShapeCasts S1024x1024
  h_S256x1024 : 0 < S256x1024.numel
  shapeCasts_S16384x8192_S16x1024x8192 : S16384x8192.ShapeCasts S16x1024x8192
  gather_S8192x64_S16x1024x1_S16x1024x64_2_0_n_n_0_2_164_wf : GatherDims.WF S8192x64 S16x1024x1 S16x1024x64 [2] [0] [] [0] [] 2 ![1, 64]
  gather_S65536x32_S16x1024x1_S16x1024x32_2_0_n_n_0_2_132_wf : GatherDims.WF S65536x32 S16x1024x1 S16x1024x32 [2] [0] [] [0] [] 2 ![1, 32]
  dot_S256x192_S192x1024_S256x1024_1_0_0_1_n_n_wf : DotDims.WF S256x192 S192x1024 S256x1024 [1] [0] [0] [1] [] []
  dot_S256x1024_S1024x1024_S256x1024_1_0_0_1_n_n_wf : DotDims.WF S256x1024 S1024x1024 S256x1024 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1024x1024.size a ≤ S1024x8192.size a
  k0_off2_inb : ∀ k0_t1 : Fin k0_t1_loop.trips, ∀ a, (k0_off2 k0_t1) a + S1x1024.size a ≤ S1x8192.size a
  k0_off3_inb : ∀ k0_t1 : Fin k0_t1_loop.trips, ∀ a, (k0_off3 k0_t1) a + S256x1024.size a ≤ S256x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x192.size a ≤ S16384x192.size a
  hwx0_0 : ∀ i : grid0.Coords, EltTy.bits .f32 = 32 ∨ (Rect.block (s := S16384x192) S256x192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x1024.size a ≤ S192x1024.size a
  hwx0_1 : ∀ i : grid0.Coords, EltTy.bits .bf16 = 32 ∨ (Rect.block (s := S192x1024) S192x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x8192.size a ≤ S1024x8192.size a
  hwx0_3 : ∀ i : grid0.Coords, EltTy.bits .bf16 = 32 ∨ (Rect.block (s := S1024x8192) S1024x8192.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8192.size a ≤ S1x8192.size a
  hwx0_4 : ∀ i : grid0.Coords, EltTy.bits .f32 = 32 ∨ (Rect.block (s := S1x8192) S1x8192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x8192.size a ≤ S16384x8192.size a
  hwx0_5 : ∀ i : grid0.Coords, EltTy.bits .f32 = 32 ∨ (Rect.block (s := S16384x8192) S256x8192.size (cc0_transform_5 i) (hinb0_5 i)).WholeWords (EltTy.packing .f32)

variable [Facts₀]

def gather_S8192x64_S16x1024x1_S16x1024x64_2_0_n_n_0_2_164 : GatherDims S8192x64 S16x1024x1 S16x1024x64 where
  offsetDims := [2]
  collapsedSliceDims := [0]
  operandBatchingDims := []
  startIndicesBatchingDims := []
  startIndexMap := [0]
  indexVectorDim := 2
  sliceSizes := ![1, 64]
  wf := gather_S8192x64_S16x1024x1_S16x1024x64_2_0_n_n_0_2_164_wf
def gather_S65536x32_S16x1024x1_S16x1024x32_2_0_n_n_0_2_132 : GatherDims S65536x32 S16x1024x1 S16x1024x32 where
  offsetDims := [2]
  collapsedSliceDims := [0]
  operandBatchingDims := []
  startIndicesBatchingDims := []
  startIndexMap := [0]
  indexVectorDim := 2
  sliceSizes := ![1, 32]
  wf := gather_S65536x32_S16x1024x1_S16x1024x32_2_0_n_n_0_2_132_wf
def dot_S256x192_S192x1024_S256x1024_1_0_0_1_n_n : DotDims S256x192 S192x1024 S256x1024 where
  lhsContracting := [1]
  rhsContracting := [0]
  lhsNonContracting := [0]
  rhsNonContracting := [1]
  lhsBatch := []
  rhsBatch := []
  wf := dot_S256x192_S192x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v106) S256x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v107) S192x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v109) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v108) S1024x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v110) S1x8192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v111) S256x8192.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x1024 : Shape := ⟨2, ![16, 1024]⟩
abbrev S8192x64 : Shape := ⟨2, ![8192, 64]⟩
abbrev S4x65536x32 : Shape := ⟨3, ![4, 65536, 32]⟩
abbrev S192x1024 : Shape := ⟨2, ![192, 1024]⟩
abbrev S1024 : Shape := ⟨1, ![1024]⟩
abbrev S1024x8192 : Shape := ⟨2, ![1024, 8192]⟩
abbrev S8192 : Shape := ⟨1, ![8192]⟩
abbrev S_ : Shape := ⟨0, ![]⟩
abbrev S16x1024x1 : Shape := ⟨3, ![16, 1024, 1]⟩
abbrev S16x1024x64 : Shape := ⟨3, ![16, 1024, 64]⟩
abbrev S16x1023 : Shape := ⟨2, ![16, 1023]⟩
abbrev S16x1022 : Shape := ⟨2, ![16, 1022]⟩
abbrev S1x65536x32 : Shape := ⟨3, ![1, 65536, 32]⟩
abbrev S65536x32 : Shape := ⟨2, ![65536, 32]⟩
abbrev S16x1024x32 : Shape := ⟨3, ![16, 1024, 32]⟩
abbrev S16x1021 : Shape := ⟨2, ![16, 1021]⟩
abbrev S16x1024x192 : Shape := ⟨3, ![16, 1024, 192]⟩
abbrev S16x1024x1024 : Shape := ⟨3, ![16, 1024, 1024]⟩
abbrev S1x1x1024 : Shape := ⟨3, ![1, 1, 1024]⟩
abbrev S16x1024x8192 : Shape := ⟨3, ![16, 1024, 8192]⟩
abbrev S1x1x8192 : Shape := ⟨3, ![1, 1, 8192]⟩

abbrev nBuf : Space → Nat
  | .hbm => 169
  | .vmem => 0
  | .smem => 0
  | _ => 0

abbrev hbmTy0_0 (i : Nat) : BufTy := match i % 128 with
  | 0 => ⟨S16x1024, .i32⟩
  | 1 => ⟨S8192x64, .f32⟩
  | 2 => ⟨S4x65536x32, .f32⟩
  | 3 => ⟨S192x1024, .f32⟩
  | 4 => ⟨S1024, .f32⟩
  | 5 => ⟨S1024x8192, .f32⟩
  | 6 => ⟨S8192, .f32⟩
  | 7 => ⟨S16x1024, .i32⟩
  | 8 => ⟨S_, .i32⟩
  | 9 => ⟨S16x1024, .i32⟩
  | 10 => ⟨S16x1024, .i1⟩
  | 11 => ⟨S_, .i32⟩
  | 12 => ⟨S16x1024, .i32⟩
  | 13 => ⟨S16x1024, .i32⟩
  | 14 => ⟨S16x1024, .i32⟩
  | 15 => ⟨S16x1024x1, .i32⟩
  | 16 => ⟨S16x1024x64, .f32⟩
  | 17 => ⟨S_, .i32⟩
  | 18 => ⟨S16x1024, .i32⟩
  | 19 => ⟨S16x1023, .i32⟩
  | 20 => ⟨S_, .i32⟩
  | 21 => ⟨S_, .i32⟩
  | 22 => ⟨S16x1024, .i32⟩
  | 23 => ⟨S_, .i32⟩
  | 24 => ⟨S16x1024, .i32⟩
  | 25 => ⟨S16x1024, .i32⟩
  | 26 => ⟨S16x1024, .i32⟩
  | 27 => ⟨S16x1022, .i32⟩
  | 28 => ⟨S_, .i32⟩
  | 29 => ⟨S_, .i32⟩
  | 30 => ⟨S16x1024, .i32⟩
  | 31 => ⟨S_, .i32⟩
  | 32 => ⟨S16x1024, .i32⟩
  | 33 => ⟨S16x1024, .i32⟩
  | 34 => ⟨S16x1024, .i32⟩
  | 35 => ⟨S_, .i32⟩
  | 36 => ⟨S16x1024, .i32⟩
  | 37 => ⟨S16x1024, .i32⟩
  | 38 => ⟨S16x1024, .i32⟩
  | 39 => ⟨S1x65536x32, .f32⟩
  | 40 => ⟨S65536x32, .f32⟩
  | 41 => ⟨S_, .i32⟩
  | 42 => ⟨S16x1024, .i32⟩
  | 43 => ⟨S16x1024, .i1⟩
  | 44 => ⟨S_, .i32⟩
  | 45 => ⟨S16x1024, .i32⟩
  | 46 => ⟨S16x1024, .i32⟩
  | 47 => ⟨S16x1024, .i32⟩
  | 48 => ⟨S16x1024x1, .i32⟩
  | 49 => ⟨S16x1024x32, .f32⟩
  | 50 => ⟨S_, .i32⟩
  | 51 => ⟨S16x1024, .i32⟩
  | 52 => ⟨S16x1023, .i32⟩
  | 53 => ⟨S_, .i32⟩
  | 54 => ⟨S_, .i32⟩
  | 55 => ⟨S16x1024, .i32⟩
  | 56 => ⟨S_, .i32⟩
  | 57 => ⟨S16x1024, .i32⟩
  | 58 => ⟨S16x1024, .i32⟩
  | 59 => ⟨S16x1024, .i32⟩
  | 60 => ⟨S16x1022, .i32⟩
  | 61 => ⟨S_, .i32⟩
  | 62 => ⟨S_, .i32⟩
  | 63 => ⟨S16x1024, .i32⟩
  | 64 => ⟨S_, .i32⟩
  | 65 => ⟨S16x1024, .i32⟩
  | 66 => ⟨S16x1024, .i32⟩
  | 67 => ⟨S16x1024, .i32⟩
  | 68 => ⟨S16x1021, .i32⟩
  | 69 => ⟨S_, .i32⟩
  | 70 => ⟨S_, .i32⟩
  | 71 => ⟨S16x1024, .i32⟩
  | 72 => ⟨S_, .i32⟩
  | 73 => ⟨S16x1024, .i32⟩
  | 74 => ⟨S16x1024, .i32⟩
  | 75 => ⟨S16x1024, .i32⟩
  | 76 => ⟨S_, .i32⟩
  | 77 => ⟨S16x1024, .i32⟩
  | 78 => ⟨S16x1024, .i32⟩
  | 79 => ⟨S16x1024, .i32⟩
  | 80 => ⟨S1x65536x32, .f32⟩
  | 81 => ⟨S65536x32, .f32⟩
  | 82 => ⟨S_, .i32⟩
  | 83 => ⟨S16x1024, .i32⟩
  | 84 => ⟨S16x1024, .i1⟩
  | 85 => ⟨S_, .i32⟩
  | 86 => ⟨S16x1024, .i32⟩
  | 87 => ⟨S16x1024, .i32⟩
  | 88 => ⟨S16x1024, .i32⟩
  | 89 => ⟨S16x1024x1, .i32⟩
  | 90 => ⟨S16x1024x32, .f32⟩
  | 91 => ⟨S_, .i32⟩
  | 92 => ⟨S16x1024, .i32⟩
  | 93 => ⟨S16x1023, .i32⟩
  | 94 => ⟨S_, .i32⟩
  | 95 => ⟨S_, .i32⟩
  | 96 => ⟨S16x1024, .i32⟩
  | 97 => ⟨S_, .i32⟩
  | 98 => ⟨S16x1024, .i32⟩
  | 99 => ⟨S16x1024, .i32⟩
  | 100 => ⟨S16x1024, .i32⟩
  | 101 => ⟨S16x1021, .i32⟩
  | 102 => ⟨S_, .i32⟩
  | 103 => ⟨S_, .i32⟩
  | 104 => ⟨S16x1024, .i32⟩
  | 105 => ⟨S_, .i32⟩
  | 106 => ⟨S16x1024, .i32⟩
  | 107 => ⟨S16x1024, .i32⟩
  | 108 => ⟨S16x1024, .i32⟩
  | 109 => ⟨S_, .i32⟩
  | 110 => ⟨S16x1024, .i32⟩
  | 111 => ⟨S16x1024, .i32⟩
  | 112 => ⟨S16x1024, .i32⟩
  | 113 => ⟨S1x65536x32, .f32⟩
  | 114 => ⟨S65536x32, .f32⟩
  | 115 => ⟨S_, .i32⟩
  | 116 => ⟨S16x1024, .i32⟩
  | 117 => ⟨S16x1024, .i1⟩
  | 118 => ⟨S_, .i32⟩
  | 119 => ⟨S16x1024, .i32⟩
  | 120 => ⟨S16x1024, .i32⟩
  | 121 => ⟨S16x1024, .i32⟩
  | 122 => ⟨S16x1024x1, .i32⟩
  | 123 => ⟨S16x1024x32, .f32⟩
  | 124 => ⟨S_, .i32⟩
  | 125 => ⟨S16x1024, .i32⟩
  | 126 => ⟨S16x1022, .i32⟩
  | 127 => ⟨S_, .i32⟩
  | _ => ⟨S16x1024, .i32⟩

abbrev hbmTy0_1 (i : Nat) : BufTy := match i % 128 with
  | 0 => ⟨S_, .i32⟩
  | 1 => ⟨S16x1024, .i32⟩
  | 2 => ⟨S_, .i32⟩
  | 3 => ⟨S16x1024, .i32⟩
  | 4 => ⟨S16x1024, .i32⟩
  | 5 => ⟨S16x1024, .i32⟩
  | 6 => ⟨S16x1021, .i32⟩
  | 7 => ⟨S_, .i32⟩
  | 8 => ⟨S_, .i32⟩
  | 9 => ⟨S16x1024, .i32⟩
  | 10 => ⟨S_, .i32⟩
  | 11 => ⟨S16x1024, .i32⟩
  | 12 => ⟨S16x1024, .i32⟩
  | 13 => ⟨S16x1024, .i32⟩
  | 14 => ⟨S_, .i32⟩
  | 15 => ⟨S16x1024, .i32⟩
  | 16 => ⟨S16x1024, .i32⟩
  | 17 => ⟨S16x1024, .i32⟩
  | 18 => ⟨S1x65536x32, .f32⟩
  | 19 => ⟨S65536x32, .f32⟩
  | 20 => ⟨S_, .i32⟩
  | 21 => ⟨S16x1024, .i32⟩
  | 22 => ⟨S16x1024, .i1⟩
  | 23 => ⟨S_, .i32⟩
  | 24 => ⟨S16x1024, .i32⟩
  | 25 => ⟨S16x1024, .i32⟩
  | 26 => ⟨S16x1024, .i32⟩
  | 27 => ⟨S16x1024x1, .i32⟩
  | 28 => ⟨S16x1024x32, .f32⟩
  | 29 => ⟨S16x1024x192, .f32⟩
  | 30 => ⟨S16x1024x1024, .f32⟩
  | 31 => ⟨S1x1x1024, .f32⟩
  | 32 => ⟨S16x1024x1024, .f32⟩
  | 33 => ⟨S16x1024x1024, .f32⟩
  | 34 => ⟨S_, .f32⟩
  | 35 => ⟨S16x1024x1024, .f32⟩
  | 36 => ⟨S16x1024x1024, .f32⟩
  | 37 => ⟨S16x1024x8192, .f32⟩
  | 38 => ⟨S1x1x8192, .f32⟩
  | 39 => ⟨S16x1024x8192, .f32⟩
  | 40 => ⟨S16x1024x8192, .f32⟩
  | _ => ⟨S16x1024, .i32⟩

abbrev hbmTy (i : Nat) : BufTy := match i / 128 with
  | 0 => hbmTy0_0 i
  | 1 => hbmTy0_1 i
  | _ => ⟨S16x1024, .i32⟩

abbrev bufTy : (tb : Table) → Fin (tcTables nBuf tb) → BufTy
  | .hbm, ⟨i, _⟩ => hbmTy i
  | _, _ => ⟨S16x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_call0_v0 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_call1_v0 : Ref sig .tc := ⟨.hbm, 29, rfl⟩
abbrev main_v15 : Ref sig .tc := ⟨.hbm, 30, rfl⟩
abbrev main_c_5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_6 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_7 : Ref sig .tc := ⟨.hbm, 41, rfl⟩
abbrev main_v24 : Ref sig .tc := ⟨.hbm, 42, rfl⟩
abbrev main_v25 : Ref sig .tc := ⟨.hbm, 43, rfl⟩
abbrev main_c_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_9 : Ref sig .tc := ⟨.hbm, 50, rfl⟩
abbrev main_v31 : Ref sig .tc := ⟨.hbm, 51, rfl⟩
abbrev main_v32 : Ref sig .tc := ⟨.hbm, 52, rfl⟩
abbrev main_c_10 : Ref sig .tc := ⟨.hbm, 53, rfl⟩
abbrev main_call2_v0 : Ref sig .tc := ⟨.hbm, 54, rfl⟩
abbrev main_v33 : Ref sig .tc := ⟨.hbm, 55, rfl⟩
abbrev main_c_11 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_12 : Ref sig .tc := ⟨.hbm, 61, rfl⟩
abbrev main_call3_v0 : Ref sig .tc := ⟨.hbm, 62, rfl⟩
abbrev main_v38 : Ref sig .tc := ⟨.hbm, 63, rfl⟩
abbrev main_c_13 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_14 : Ref sig .tc := ⟨.hbm, 69, rfl⟩
abbrev main_call4_v0 : Ref sig .tc := ⟨.hbm, 70, rfl⟩
abbrev main_v43 : Ref sig .tc := ⟨.hbm, 71, rfl⟩
abbrev main_c_15 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_c_16 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_17 : Ref sig .tc := ⟨.hbm, 82, rfl⟩
abbrev main_v52 : Ref sig .tc := ⟨.hbm, 83, rfl⟩
abbrev main_v53 : Ref sig .tc := ⟨.hbm, 84, rfl⟩
abbrev main_c_18 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_c_19 : Ref sig .tc := ⟨.hbm, 91, rfl⟩
abbrev main_v59 : Ref sig .tc := ⟨.hbm, 92, rfl⟩
abbrev main_v60 : Ref sig .tc := ⟨.hbm, 93, rfl⟩
abbrev main_c_20 : Ref sig .tc := ⟨.hbm, 94, rfl⟩
abbrev main_call5_v0 : Ref sig .tc := ⟨.hbm, 95, rfl⟩
abbrev main_v61 : Ref sig .tc := ⟨.hbm, 96, rfl⟩
abbrev main_c_21 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_c_22 : Ref sig .tc := ⟨.hbm, 102, rfl⟩
abbrev main_call6_v0 : Ref sig .tc := ⟨.hbm, 103, rfl⟩
abbrev main_v66 : Ref sig .tc := ⟨.hbm, 104, rfl⟩
abbrev main_c_23 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_c_24 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_c_25 : Ref sig .tc := ⟨.hbm, 115, rfl⟩
abbrev main_v75 : Ref sig .tc := ⟨.hbm, 116, rfl⟩
abbrev main_v76 : Ref sig .tc := ⟨.hbm, 117, rfl⟩
abbrev main_c_26 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_c_27 : Ref sig .tc := ⟨.hbm, 124, rfl⟩
abbrev main_v82 : Ref sig .tc := ⟨.hbm, 125, rfl⟩
abbrev main_v83 : Ref sig .tc := ⟨.hbm, 126, rfl⟩
abbrev main_c_28 : Ref sig .tc := ⟨.hbm, 127, rfl⟩
abbrev main_call7_v0 : Ref sig .tc := ⟨.hbm, 128, rfl⟩
abbrev main_v84 : Ref sig .tc := ⟨.hbm, 129, rfl⟩
abbrev main_c_29 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_c_30 : Ref sig .tc := ⟨.hbm, 135, rfl⟩
abbrev main_call8_v0 : Ref sig .tc := ⟨.hbm, 136, rfl⟩
abbrev main_v89 : Ref sig .tc := ⟨.hbm, 137, rfl⟩
abbrev main_c_31 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_c_32 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_c_33 : Ref sig .tc := ⟨.hbm, 148, rfl⟩
abbrev main_v98 : Ref sig .tc := ⟨.hbm, 149, rfl⟩
abbrev main_v99 : Ref sig .tc := ⟨.hbm, 150, rfl⟩
abbrev main_c_34 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_call9_cst : Ref sig .tc := ⟨.hbm, 162, rfl⟩
abbrev main_call9_v0 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩

abbrev nD : Nat := 1
abbrev τ : Topo := Topo.v7x

variable {F : FTy → Type} [FloatOps F]

class Facts₀ : Prop where
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  slices_S16x1024_S16x1023_0_0 : S16x1024.Slices ![0, 0] S16x1023
  pads_S16x1023_S16x1024_000_100 : S16x1023.Pads (![0, 1] : Fin 2 → Nat) ![0, 0] ![0, 0] S16x1024
  h_S_ : 0 < S_.numel
  slices_S16x1024_S16x1022_0_0 : S16x1024.Slices ![0, 0] S16x1022
  pads_S16x1022_S16x1024_000_200 : S16x1022.Pads (![0, 2] : Fin 2 → Nat) ![0, 0] ![0, 0] S16x1024
  slices_S4x65536x32_S1x65536x32_0_0_0 : S4x65536x32.Slices ![0, 0, 0] S1x65536x32
  shapeCasts_S1x65536x32_S65536x32 : S1x65536x32.ShapeCasts S65536x32
  slices_S16x1024_S16x1021_0_0 : S16x1024.Slices ![0, 0] S16x1021
  pads_S16x1021_S16x1024_000_300 : S16x1021.Pads (![0, 3] : Fin 2 → Nat) ![0, 0] ![0, 0] S16x1024
  slices_S4x65536x32_S1x65536x32_1_0_0 : S4x65536x32.Slices ![1, 0, 0] S1x65536x32
  slices_S4x65536x32_S1x65536x32_2_0_0 : S4x65536x32.Slices ![2, 0, 0] S1x65536x32
  slices_S4x65536x32_S1x65536x32_3_0_0 : S4x65536x32.Slices ![3, 0, 0] S1x65536x32
  concatenates_S16x1024x64_S16x1024x32_S16x1024x32_S16x1024x32_S16x1024x32_S16x1024x192_d2 : Shape.Concatenates [S16x1024x64, S16x1024x32, S16x1024x32, S16x1024x32, S16x1024x32] S16x1024x192 2
  bcast_S1024_S1x1x1024_2 : S1024.BroadcastsInDim S1x1x1024 (![2] : Fin 1 → Fin S1x1x1024.rank)
  bcast_S1x1x1024_S16x1024x1024_0_1_2 : S1x1x1024.BroadcastsInDim S16x1024x1024 (![0, 1, 2] : Fin 3 → Fin S16x1024x1024.rank)
  bcast_S_S16x1024x1024 : S_.BroadcastsInDim S16x1024x1024 (![] : Fin 0 → Fin S16x1024x1024.rank)
  bcast_S8192_S1x1x8192_2 : S8192.BroadcastsInDim S1x1x8192 (![2] : Fin 1 → Fin S1x1x8192.rank)
  bcast_S1x1x8192_S16x1024x8192_0_1_2 : S1x1x8192.BroadcastsInDim S16x1024x8192 (![0, 1, 2] : Fin 3 → Fin S16x1024x8192.rank)
  gather_S8192x64_S16x1024x1_S16x1024x64_2_0_n_n_0_2_164_wf : GatherDims.WF S8192x64 S16x1024x1 S16x1024x64 [2] [0] [] [0] [] 2 ![1, 64]
  gather_S65536x32_S16x1024x1_S16x1024x32_2_0_n_n_0_2_132_wf : GatherDims.WF S65536x32 S16x1024x1 S16x1024x32 [2] [0] [] [0] [] 2 ![1, 32]
  dot_S16x1024x192_S192x1024_S16x1024x1024_2_0_01_1_n_n_wf : DotDims.WF S16x1024x192 S192x1024 S16x1024x1024 [2] [0] [0, 1] [1] [] []
  dot_S16x1024x1024_S1024x8192_S16x1024x8192_2_0_01_1_n_n_wf : DotDims.WF S16x1024x1024 S1024x8192 S16x1024x8192 [2] [0] [0, 1] [1] [] []

variable [Facts₀]

def gather_S8192x64_S16x1024x1_S16x1024x64_2_0_n_n_0_2_164 : GatherDims S8192x64 S16x1024x1 S16x1024x64 where
  offsetDims := [2]
  collapsedSliceDims := [0]
  operandBatchingDims := []
  startIndicesBatchingDims := []
  startIndexMap := [0]
  indexVectorDim := 2
  sliceSizes := ![1, 64]
  wf := gather_S8192x64_S16x1024x1_S16x1024x64_2_0_n_n_0_2_164_wf
def gather_S65536x32_S16x1024x1_S16x1024x32_2_0_n_n_0_2_132 : GatherDims S65536x32 S16x1024x1 S16x1024x32 where
  offsetDims := [2]
  collapsedSliceDims := [0]
  operandBatchingDims := []
  startIndicesBatchingDims := []
  startIndexMap := [0]
  indexVectorDim := 2
  sliceSizes := ![1, 32]
  wf := gather_S65536x32_S16x1024x1_S16x1024x32_2_0_n_n_0_2_132_wf
def dot_S16x1024x192_S192x1024_S16x1024x1024_2_0_01_1_n_n : DotDims S16x1024x192 S192x1024 S16x1024x1024 where
  lhsContracting := [2]
  rhsContracting := [0]
  lhsNonContracting := [0, 1]
  rhsNonContracting := [1]
  lhsBatch := []
  rhsBatch := []
  wf := dot_S16x1024x192_S192x1024_S16x1024x1024_2_0_01_1_n_n_wf
def dot_S16x1024x1024_S1024x8192_S16x1024x8192_2_0_01_1_n_n : DotDims S16x1024x1024 S1024x8192 S16x1024x8192 where
  lhsContracting := [2]
  rhsContracting := [0]
  lhsNonContracting := [0, 1]
  rhsNonContracting := [1]
  lhsBatch := []
  rhsBatch := []
  wf := dot_S16x1024x1024_S1024x8192_S16x1024x8192_2_0_01_1_n_n_wf

class Facts : Prop extends Facts₀ where

variable [Facts]
-- ==== Proof.K.Entry.lean ====
/-
  The host program around the one launch, for the frame of `Kernel`: the buffer contents the launch finds
  (every host line before it applied to the launch memory), the program split as "host lines, launch, host
  lines", the facts that the trailing reshape touches only unscoped buffers and overwrites no array of the
  launch, that no host line before the launch writes an argument array, and what an input window's staging
  buffer holds at a grid point (its block of the array, fetched there or not).
-/
import proofs.«429558_j40819369181896_3_alg».proof.Proof.Gen.Kernel.Launch
import proofs.«429558_j40819369181896_3_alg».proof.Proof.Gen.Kernel.Skeleton
import proofs.«429558_j40819369181896_3_alg».proof.Proof.Gen.Kernel.Loops
import proofs.«429558_j40819369181896_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the launch -/

/-- Core `c`'s buffer contents when the launch starts: the host lines before it applied to the memory. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines before the launch, the launch, the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh⟩) main_chain

/-- The reshape after the launch touches the launch's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer, which is no array of the launch. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

set_option maxHeartbeats 4000000 in
/-- No host line before the launch writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host line before the launch writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host line before the launch writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host line before the launch writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host line before the launch writes argument 4: the launch finds it as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host line before the launch writes argument 5: the launch finds it as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host line before the launch writes argument 6: the launch finds it as it was. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs at a point -/

abbrev VO0_5 : View sig .tc .vmem S256x8192 .f32 := (Memref.whole cc0_stg5_0 : Memref sig .tc .vmem S256x8192 .f32).view
abbrev ms0_0 (t : Fin cfg0.N) : Memref sig .tc .vmem S256x192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S192x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x8192 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8192 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x8192 .f32 := win0_5.stage (cfg0.slots t 5)
abbrev hs0_5 (t : Fin cfg0.N) : (ms0_5 t).IsWhole := hstage0_5 ((cfg0.slots t 5).cast nbuf0_5)

end Cert.Kernel.Around

end
-- ==== Proof.K.BodyRun.lean ====
/-
  The kernel body run once, on any whole staging buffers: the five inputs held at their contents, the output
  at anything. It runs to its end leaving the inputs as they were and the output buffer with the stores'
  pieces written (the eight column chunks, one per trip of the loop over the output's 1024-column chunks).
  The piece list is found by the run itself.
-/
import proofs.«429558_j40819369181896_3_alg».proof.Proof.K.Entry

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's triple with the output's pieces as its witness. -/
noncomputable def kernelRun0 (c : Dev nD) (i : grid0.Coords) (arg1 : Memref sig .tc .vmem S256x192 .f32) (harg1 : arg1.IsWhole) (arg2 : Memref sig .tc .vmem S192x1024 .bf16) (harg2 : arg2.IsWhole) (arg3 : Memref sig .tc .vmem S1x1024 .f32) (harg3 : arg3.IsWhole) (arg4 : Memref sig .tc .vmem S1024x8192 .bf16) (harg4 : arg4.IsWhole) (arg5 : Memref sig .tc .vmem S1x8192 .f32) (harg5 : arg5.IsWhole) (arg6 : Memref sig .tc .vmem S256x8192 .f32) (harg6 : arg6.IsWhole)
    (x0 : Vec F S256x192 .f32) (x1 : Vec F S192x1024 .bf16) (x2 : Vec F S1x1024 .f32) (x3 : Vec F S1024x8192 .bf16) (x4 : Vec F S1x8192 .f32) :
    { L5 : List (View.Piece (Elt F) S256x8192 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc0__mlp_kernel i arg1 harg1 arg2 harg2 arg3 harg3 arg4 harg4 arg5 harg5 arg6 harg6) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2
    obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Around

end
-- ==== Proof.K.Frame.lean ====
/-
  The frame of `Kernel`: what the output's staging buffer holds after the body at each grid point (the
  run's pieces read back; they tile the 256x8192 block as eight 256x1024 column chunks), the launch's proof
  data (each input window's buffer at its block, the output's at the body's result), the body obligation at a
  generic point, the run of the whole program around the launch, and the frame statement read off it.
-/
import proofs.«429558_j40819369181896_3_alg».proof.Proof.K.BodyRun

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces tile the output block (eight stores of 256x1024 columns), so they cover it. -/
theorem cover0_5 (c : Dev nD) (i : grid0.Coords) (arg1 : Memref sig .tc .vmem S256x192 .f32) (harg1 : arg1.IsWhole) (arg2 : Memref sig .tc .vmem S192x1024 .bf16) (harg2 : arg2.IsWhole) (arg3 : Memref sig .tc .vmem S1x1024 .f32) (harg3 : arg3.IsWhole) (arg4 : Memref sig .tc .vmem S1024x8192 .bf16) (harg4 : arg4.IsWhole) (arg5 : Memref sig .tc .vmem S1x8192 .f32) (harg5 : arg5.IsWhole) (arg6 : Memref sig .tc .vmem S256x8192 .f32) (harg6 : arg6.IsWhole)
    (x0 : Vec F S256x192 .f32) (x1 : Vec F S192x1024 .bf16) (x2 : Vec F S1x1024 .f32) (x3 : Vec F S1024x8192 .bf16) (x4 : Vec F S1x8192 .f32) (y : S256x8192.Idx) :
    ∃ pc ∈ (kernelRun0 c i arg1 harg1 arg2 harg2 arg3 harg3 arg4 harg4 arg5 harg5 arg6 harg6 x0 x1 x2 x3 x4).1, y ∈ pc.1.set :=
  View.cover_of_tiledL (kernelRun0 c i arg1 harg1 arg2 harg2 arg3 harg3 arg4 harg4 arg5 harg5 arg6 harg6 x0 x1 x2 x3 x4).1 S256x1024.size (by sl_kernel_rfl) y

/-- What the run leaves in the output's staging buffer: its pieces read back over junk. -/
def out0_5 (c : Dev nD) (i : grid0.Coords) (arg1 : Memref sig .tc .vmem S256x192 .f32) (harg1 : arg1.IsWhole) (arg2 : Memref sig .tc .vmem S192x1024 .bf16) (harg2 : arg2.IsWhole) (arg3 : Memref sig .tc .vmem S1x1024 .f32) (harg3 : arg3.IsWhole) (arg4 : Memref sig .tc .vmem S1024x8192 .bf16) (harg4 : arg4.IsWhole) (arg5 : Memref sig .tc .vmem S1x8192 .f32) (harg5 : arg5.IsWhole) (arg6 : Memref sig .tc .vmem S256x8192 .f32) (harg6 : arg6.IsWhole)
    (x0 : Vec F S256x192 .f32) (x1 : Vec F S192x1024 .bf16) (x2 : Vec F S1x1024 .f32) (x3 : Vec F S1024x8192 .bf16) (x4 : Vec F S1x8192 .f32) : Vec F S256x8192 .f32 :=
  VO0_5.read (Elt F) (VO0_5.writes (Elt F) VO0_5.junk (kernelRun0 c i arg1 harg1 arg2 harg2 arg3 harg3 arg4 harg4 arg5 harg5 arg6 harg6 x0 x1 x2 x3 x4).1)

/-- What the output's staging buffer holds after the body at point `t`. -/
def outsAt0 (c : Dev nD) (t : Fin cfg0.N) : Vec F S256x8192 .f32 :=
  out0_5 c (grid0.coords t) (ms0_0 t) (hs0_0 t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) (iblk m c 3 t) (iblk m c 4 t)

/-- The launch's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any point: the inputs' buffers hold their blocks, so the run applies; the invariant passes
    through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  unfold outsAt0
  unfold out0_5
  iintro ⟨HΦ, Ho, ⟨%d0, H0⟩, ⟨%d1, H1⟩, ⟨%d2, H2⟩, ⟨%d3, H3⟩, ⟨%d4, H4⟩, ⟨%d5, H5⟩⟩
  iapply ((kernelRun0 c (grid0.coords t) _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_5 c _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates, and in every final state each array of the launch
    holds what the proof data give it, every other unscoped buffer what the trailing reshape leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- A buffer that is no array of the launch and is not the trailing reshape's result holds, after the whole
    program, what the launch found in it. -/
theorem tail_keeps (c : Dev nD) (b : Ref sig .tc) (hb : ∀ w, Pipeline.arrRef spec0 w ≠ b) (hne : b ≠ main_v112) :
    Pipeline.afterTail₀ cfgs (dats m) 0 (V0 m) [hostOps1] c b = V m c b := by
  unfold Pipeline.afterTail₀
  rw [StableHlo.after_of_forall_not_mem (b := Proc.devRef .tc b) _ _ (fun op hop => ?_)]
  · exact Pipeline.withArrays_of_ne _ c (V0 m c) _ b hb
  · simp only [hostOps1, List.flatten_cons, List.flatten_nil, List.append_nil, List.mem_cons, List.mem_nil_iff, or_false] at hop
    subst hop
    rw [StableHlo.reshape_writes, Finset.mem_singleton]
    exact StableHlo.devRef_ne_of_ne hne

/-- After the run an argument array (unscoped, no array of the launch) is as the launch found it. -/
theorem kept (r : PUnit × MemSt nD τ sig (Elt F))
    (h : Pipeline.FramePost cfgs (dats m) 0 (Pipeline.afterTail₀ cfgs (dats m) 0 (V0 m) [hostOps1]) r) (c : Dev nD)
    (b : Ref sig .tc) (hs : b.isScoped = false) (ha : ∀ w, (spec0 w).arr.view.ref ≠ b) (hb : ∀ w, Pipeline.arrRef spec0 w ≠ b)
    (hne : b ≠ main_v112) : r.2.mem ((c.tc : Thread nD τ).loc b) = V m c b :=
  ((h c).2 b (Pipeline.mem_restRefs_of b hs ha)).trans (tail_keeps m c b hb hne)

/-- The frame: the program runs to its end, nothing faults, and the seven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
      (kept m r h c main_arg0 (by decide) (by decide) (by decide) (by decide)).trans (V_main_arg0 m c),
      (kept m r h c main_arg1 (by decide) (by decide) (by decide) (by decide)).trans (V_main_arg1 m c),
      (kept m r h c main_arg2 (by decide) (by decide) (by decide) (by decide)).trans (V_main_arg2 m c),
      (kept m r h c main_arg3 (by decide) (by decide) (by decide) (by decide)).trans (V_main_arg3 m c),
      (kept m r h c main_arg4 (by decide) (by decide) (by decide) (by decide)).trans (V_main_arg4 m c),
      (kept m r h c main_arg5 (by decide) (by decide) (by decide) (by decide)).trans (V_main_arg5 m c),
      (kept m r h c main_arg6 (by decide) (by decide) (by decide) (by decide)).trans (V_main_arg6 m c)⟩)
    (run_main m ρ)

/-- After the run the result buffer holds the trailing reshape of the launch's output array. -/
theorem post_out (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_v112) = Pipeline.afterTail₀ cfgs (dats m) 0 (V0 m) [hostOps1] c main_v112 :=
  (h c).2 main_v112 (Pipeline.mem_restRefs_of main_v112 (by decide) (by decide))

end Cert.Kernel.Around

end
-- ==== Proof.KI.Entry.lean ====
/-
  The host program around the one launch, for the frame of `KernelIdeal`: the buffer contents the launch finds
  (every host line before it applied to the launch memory), the program split as "host lines, launch, host
  lines", the facts that the trailing reshape touches only unscoped buffers and overwrites no array of the
  launch, that no host line before the launch writes an argument array, and what an input window's staging
  buffer holds at a grid point (its block of the array, fetched there or not).
-/
import proofs.«429558_j40819369181896_3_alg».proof.Proof.Gen.KernelIdeal.Launch
import proofs.«429558_j40819369181896_3_alg».proof.Proof.Gen.KernelIdeal.Skeleton
import proofs.«429558_j40819369181896_3_alg».proof.Proof.Gen.KernelIdeal.Loops
import proofs.«429558_j40819369181896_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the launch -/

/-- Core `c`'s buffer contents when the launch starts: the host lines before it applied to the memory. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines before the launch, the launch, the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh⟩) main_chain

/-- The reshape after the launch touches the launch's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer, which is no array of the launch. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

set_option maxHeartbeats 4000000 in
/-- No host line before the launch writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host line before the launch writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host line before the launch writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host line before the launch writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host line before the launch writes argument 4: the launch finds it as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host line before the launch writes argument 5: the launch finds it as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host line before the launch writes argument 6: the launch finds it as it was. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs at a point -/

abbrev VO0_5 : View sig .tc .vmem S256x8192 .f32 := (Memref.whole cc0_stg5_0 : Memref sig .tc .vmem S256x8192 .f32).view
abbrev ms0_0 (t : Fin cfg0.N) : Memref sig .tc .vmem S256x192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S192x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x8192 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8192 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x8192 .f32 := win0_5.stage (cfg0.slots t 5)
abbrev hs0_5 (t : Fin cfg0.N) : (ms0_5 t).IsWhole := hstage0_5 ((cfg0.slots t 5).cast nbuf0_5)

end Cert.KernelIdeal.Around

end
-- ==== Proof.KI.BodyRun.lean ====
/-
  The kernel body run once, on any whole staging buffers: the five inputs held at their contents, the output
  at anything. It runs to its end leaving the inputs as they were and the output buffer with the stores'
  pieces written (the eight column chunks, one per trip of the loop over the output's 1024-column chunks).
  The piece list is found by the run itself.
-/
import proofs.«429558_j40819369181896_3_alg».proof.Proof.KI.Entry

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's triple with the output's pieces as its witness. -/
noncomputable def kernelRun0 (c : Dev nD) (i : grid0.Coords) (arg1 : Memref sig .tc .vmem S256x192 .f32) (harg1 : arg1.IsWhole) (arg2 : Memref sig .tc .vmem S192x1024 .bf16) (harg2 : arg2.IsWhole) (arg3 : Memref sig .tc .vmem S1x1024 .f32) (harg3 : arg3.IsWhole) (arg4 : Memref sig .tc .vmem S1024x8192 .bf16) (harg4 : arg4.IsWhole) (arg5 : Memref sig .tc .vmem S1x8192 .f32) (harg5 : arg5.IsWhole) (arg6 : Memref sig .tc .vmem S256x8192 .f32) (harg6 : arg6.IsWhole)
    (x0 : Vec F S256x192 .f32) (x1 : Vec F S192x1024 .bf16) (x2 : Vec F S1x1024 .f32) (x3 : Vec F S1024x8192 .bf16) (x4 : Vec F S1x8192 .f32) :
    { L5 : List (View.Piece (Elt F) S256x8192 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc0__mlp_kernel i arg1 harg1 arg2 harg2 arg3 harg3 arg4 harg4 arg5 harg5 arg6 harg6) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2
    obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Around

end
-- ==== Proof.KI.Frame.lean ====
/-
  The frame of `KernelIdeal`: what the output's staging buffer holds after the body at each grid point (the
  run's pieces read back; they tile the 256x8192 block as eight 256x1024 column chunks), the launch's proof
  data (each input window's buffer at its block, the output's at the body's result), the body obligation at a
  generic point, the run of the whole program around the launch, and the frame statement read off it.
-/
import proofs.«429558_j40819369181896_3_alg».proof.Proof.KI.BodyRun

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces tile the output block (eight stores of 256x1024 columns), so they cover it. -/
theorem cover0_5 (c : Dev nD) (i : grid0.Coords) (arg1 : Memref sig .tc .vmem S256x192 .f32) (harg1 : arg1.IsWhole) (arg2 : Memref sig .tc .vmem S192x1024 .bf16) (harg2 : arg2.IsWhole) (arg3 : Memref sig .tc .vmem S1x1024 .f32) (harg3 : arg3.IsWhole) (arg4 : Memref sig .tc .vmem S1024x8192 .bf16) (harg4 : arg4.IsWhole) (arg5 : Memref sig .tc .vmem S1x8192 .f32) (harg5 : arg5.IsWhole) (arg6 : Memref sig .tc .vmem S256x8192 .f32) (harg6 : arg6.IsWhole)
    (x0 : Vec F S256x192 .f32) (x1 : Vec F S192x1024 .bf16) (x2 : Vec F S1x1024 .f32) (x3 : Vec F S1024x8192 .bf16) (x4 : Vec F S1x8192 .f32) (y : S256x8192.Idx) :
    ∃ pc ∈ (kernelRun0 c i arg1 harg1 arg2 harg2 arg3 harg3 arg4 harg4 arg5 harg5 arg6 harg6 x0 x1 x2 x3 x4).1, y ∈ pc.1.set :=
  View.cover_of_tiledL (kernelRun0 c i arg1 harg1 arg2 harg2 arg3 harg3 arg4 harg4 arg5 harg5 arg6 harg6 x0 x1 x2 x3 x4).1 S256x1024.size (by sl_kernel_rfl) y

/-- What the run leaves in the output's staging buffer: its pieces read back over junk. -/
def out0_5 (c : Dev nD) (i : grid0.Coords) (arg1 : Memref sig .tc .vmem S256x192 .f32) (harg1 : arg1.IsWhole) (arg2 : Memref sig .tc .vmem S192x1024 .bf16) (harg2 : arg2.IsWhole) (arg3 : Memref sig .tc .vmem S1x1024 .f32) (harg3 : arg3.IsWhole) (arg4 : Memref sig .tc .vmem S1024x8192 .bf16) (harg4 : arg4.IsWhole) (arg5 : Memref sig .tc .vmem S1x8192 .f32) (harg5 : arg5.IsWhole) (arg6 : Memref sig .tc .vmem S256x8192 .f32) (harg6 : arg6.IsWhole)
    (x0 : Vec F S256x192 .f32) (x1 : Vec F S192x1024 .bf16) (x2 : Vec F S1x1024 .f32) (x3 : Vec F S1024x8192 .bf16) (x4 : Vec F S1x8192 .f32) : Vec F S256x8192 .f32 :=
  VO0_5.read (Elt F) (VO0_5.writes (Elt F) VO0_5.junk (kernelRun0 c i arg1 harg1 arg2 harg2 arg3 harg3 arg4 harg4 arg5 harg5 arg6 harg6 x0 x1 x2 x3 x4).1)

/-- What the output's staging buffer holds after the body at point `t`. -/
def outsAt0 (c : Dev nD) (t : Fin cfg0.N) : Vec F S256x8192 .f32 :=
  out0_5 c (grid0.coords t) (ms0_0 t) (hs0_0 t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) (iblk m c 3 t) (iblk m c 4 t)

/-- The launch's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any point: the inputs' buffers hold their blocks, so the run applies; the invariant passes
    through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  unfold outsAt0
  unfold out0_5
  iintro ⟨HΦ, Ho, ⟨%d0, H0⟩, ⟨%d1, H1⟩, ⟨%d2, H2⟩, ⟨%d3, H3⟩, ⟨%d4, H4⟩, ⟨%d5, H5⟩⟩
  iapply ((kernelRun0 c (grid0.coords t) _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_5 c _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates, and in every final state each array of the launch
    holds what the proof data give it, every other unscoped buffer what the trailing reshape leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- A buffer that is no array of the launch and is not the trailing reshape's result holds, after the whole
    program, what the launch found in it. -/
theorem tail_keeps (c : Dev nD) (b : Ref sig .tc) (hb : ∀ w, Pipeline.arrRef spec0 w ≠ b) (hne : b ≠ main_v112) :
    Pipeline.afterTail₀ cfgs (dats m) 0 (V0 m) [hostOps1] c b = V m c b := by
  unfold Pipeline.afterTail₀
  rw [StableHlo.after_of_forall_not_mem (b := Proc.devRef .tc b) _ _ (fun op hop => ?_)]
  · exact Pipeline.withArrays_of_ne _ c (V0 m c) _ b hb
  · simp only [hostOps1, List.flatten_cons, List.flatten_nil, List.append_nil, List.mem_cons, List.mem_nil_iff, or_false] at hop
    subst hop
    rw [StableHlo.reshape_writes, Finset.mem_singleton]
    exact StableHlo.devRef_ne_of_ne hne

/-- After the run an argument array (unscoped, no array of the launch) is as the launch found it. -/
theorem kept (r : PUnit × MemSt nD τ sig (Elt F))
    (h : Pipeline.FramePost cfgs (dats m) 0 (Pipeline.afterTail₀ cfgs (dats m) 0 (V0 m) [hostOps1]) r) (c : Dev nD)
    (b : Ref sig .tc) (hs : b.isScoped = false) (ha : ∀ w, (spec0 w).arr.view.ref ≠ b) (hb : ∀ w, Pipeline.arrRef spec0 w ≠ b)
    (hne : b ≠ main_v112) : r.2.mem ((c.tc : Thread nD τ).loc b) = V m c b :=
  ((h c).2 b (Pipeline.mem_restRefs_of b hs ha)).trans (tail_keeps m c b hb hne)

/-- The frame: the program runs to its end, nothing faults, and the seven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
      (kept m r h c main_arg0 (by decide) (by decide) (by decide) (by decide)).trans (V_main_arg0 m c),
      (kept m r h c main_arg1 (by decide) (by decide) (by decide) (by decide)).trans (V_main_arg1 m c),
      (kept m r h c main_arg2 (by decide) (by decide) (by decide) (by decide)).trans (V_main_arg2 m c),
      (kept m r h c main_arg3 (by decide) (by decide) (by decide) (by decide)).trans (V_main_arg3 m c),
      (kept m r h c main_arg4 (by decide) (by decide) (by decide) (by decide)).trans (V_main_arg4 m c),
      (kept m r h c main_arg5 (by decide) (by decide) (by decide) (by decide)).trans (V_main_arg5 m c),
      (kept m r h c main_arg6 (by decide) (by decide) (by decide) (by decide)).trans (V_main_arg6 m c)⟩)
    (run_main m ρ)

/-- After the run the result buffer holds the trailing reshape of the launch's output array. -/
theorem post_out (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_v112) = Pipeline.afterTail₀ cfgs (dats m) 0 (V0 m) [hostOps1] c main_v112 :=
  (h c).2 main_v112 (Pipeline.mem_restRefs_of main_v112 (by decide) (by decide))

end Cert.KernelIdeal.Around

end
-- ==== Proof.KI.Pieces.lean ====
/-
  The output block, store by store. One trip k of the loop stores one 256x1024 column chunk at column offset
  1024·k: the stored value is the body's one payload of the three whole input blocks and of the k-th column
  chunk of the weights block and of the bias block. The pieces before trip n are those of the trips below n, so
  every piece of the body's run is one trip's piece, and the output's staging buffer after the body is the
  canonical contents of those pieces.
-/
import proofs.«429558_j40819369181896_3_alg».proof.Proof.KI.Frame

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI Idealize.SL.Sem

variable {F : FTy → Type} [FloatOps F]

/-- The piece trip `k` stores, over the three values loaded before the loop and the two buffers the trip reads. -/
def tripPiece (arg4 : Memref sig .tc .vmem S1024x8192 .bf16) (arg5 : Memref sig .tc .vmem S1x8192 .f32)
    (v0 : Vec F S256x192 .f32) (v3 : Vec F S192x1024 .bf16) (v6 : Vec F S1x1024 .f32)
    (X_arg4 : BufTy.Contents (Elt F) arg4.view.ty) (X_arg5 : BufTy.Contents (Elt F) arg5.view.ty) (k : Fin k0_t1_loop.trips) :
    View.Piece (Elt F) S256x8192 .f32 :=
  ⟨Rect.unit (s := S256x8192) (k0_off3 k) S256x1024.size (k0_off3_inb k),
    k0_pay1 v0 v3 v6 (arg4.view.readAt (Elt F) (Rect.unit (s := S1024x8192) (k0_off1 k) S1024x1024.size (k0_off1_inb k)).toLoadRect X_arg4)
      (arg5.view.readAt (Elt F) (Rect.unit (s := S1x8192) (k0_off2 k) S1x1024.size (k0_off2_inb k)).toLoadRect X_arg5)⟩

/-- One trip's pieces: the one chunk it stores. -/
theorem tripL_eq (𝒱 : Variants) (bd : Option 𝒱.V) (c : Dev nD) (i : grid0.Coords) (arg1 : Memref sig .tc .vmem S256x192 .f32) (harg1 : arg1.IsWhole) (arg2 : Memref sig .tc .vmem S192x1024 .bf16) (harg2 : arg2.IsWhole) (arg3 : Memref sig .tc .vmem S1x1024 .f32) (harg3 : arg3.IsWhole) (arg4 : Memref sig .tc .vmem S1024x8192 .bf16) (harg4 : arg4.IsWhole) (arg5 : Memref sig .tc .vmem S1x8192 .f32) (harg5 : arg5.IsWhole) (arg6 : Memref sig .tc .vmem S256x8192 .f32) (harg6 : arg6.IsWhole) (v0 : Vec F S256x192 .f32) (v3 : Vec F S192x1024 .bf16) (v6 : Vec F S1x1024 .f32) (X_arg4 : BufTy.Contents (Elt F) arg4.view.ty) (X_arg5 : BufTy.Contents (Elt F) arg5.view.ty) (k : Fin k0_t1_loop.trips) :
    tripL_k0_t1 (F := F) 𝒱 c bd i arg1 harg1 arg2 harg2 arg3 harg3 arg4 harg4 arg5 harg5 arg6 harg6 v0 v3 v6 X_arg4 X_arg5 k = [tripPiece arg4 arg5 v0 v3 v6 X_arg4 X_arg5 k] := by
  unfold tripL_k0_t1 trip_k0_t1 tripPiece
  rfl

/-- Every piece of the trips below `n` is some trip's piece. -/
theorem mem_pb (𝒱 : Variants) (bd : Option 𝒱.V) (c : Dev nD) (i : grid0.Coords) (arg1 : Memref sig .tc .vmem S256x192 .f32) (harg1 : arg1.IsWhole) (arg2 : Memref sig .tc .vmem S192x1024 .bf16) (harg2 : arg2.IsWhole) (arg3 : Memref sig .tc .vmem S1x1024 .f32) (harg3 : arg3.IsWhole) (arg4 : Memref sig .tc .vmem S1024x8192 .bf16) (harg4 : arg4.IsWhole) (arg5 : Memref sig .tc .vmem S1x8192 .f32) (harg5 : arg5.IsWhole) (arg6 : Memref sig .tc .vmem S256x8192 .f32) (harg6 : arg6.IsWhole) (v0 : Vec F S256x192 .f32) (v3 : Vec F S192x1024 .bf16) (v6 : Vec F S1x1024 .f32) (X_arg4 : BufTy.Contents (Elt F) arg4.view.ty) (X_arg5 : BufTy.Contents (Elt F) arg5.view.ty)
    (p : View.Piece (Elt F) S256x8192 .f32) :
    ∀ n : ℕ, p ∈ pb_k0_t1 (F := F) 𝒱 c bd i arg1 harg1 arg2 harg2 arg3 harg3 arg4 harg4 arg5 harg5 arg6 harg6 v0 v3 v6 X_arg4 X_arg5 n →
      ∃ k : Fin k0_t1_loop.trips, p = tripPiece arg4 arg5 v0 v3 v6 X_arg4 X_arg5 k
  | 0, h => by rw [pb_k0_t1.eq_1] at h; exact absurd h List.not_mem_nil
  | n + 1, h => by
    rw [pb_k0_t1.eq_2] at h
    unfold pb_k0_t1Step at h
    split at h
    · rename_i hn
      rcases List.mem_append.mp h with h | h
      · rw [tripL_eq] at h
        exact ⟨⟨n, hn⟩, List.mem_singleton.mp h⟩
      · exact mem_pb 𝒱 bd c i arg1 harg1 arg2 harg2 arg3 harg3 arg4 harg4 arg5 harg5 arg6 harg6 v0 v3 v6 X_arg4 X_arg5 p n h
    · exact mem_pb 𝒱 bd c i arg1 harg1 arg2 harg2 arg3 harg3 arg4 harg4 arg5 harg5 arg6 harg6 v0 v3 v6 X_arg4 X_arg5 p n h

/-- Every piece the body's run leaves in the output buffer is one trip's piece, over the inputs' contents. -/
theorem mem_run (c : Dev nD) (i : grid0.Coords) (arg1 : Memref sig .tc .vmem S256x192 .f32) (harg1 : arg1.IsWhole) (arg2 : Memref sig .tc .vmem S192x1024 .bf16) (harg2 : arg2.IsWhole) (arg3 : Memref sig .tc .vmem S1x1024 .f32) (harg3 : arg3.IsWhole) (arg4 : Memref sig .tc .vmem S1024x8192 .bf16) (harg4 : arg4.IsWhole) (arg5 : Memref sig .tc .vmem S1x8192 .f32) (harg5 : arg5.IsWhole) (arg6 : Memref sig .tc .vmem S256x8192 .f32) (harg6 : arg6.IsWhole)
    (x0 : Vec F S256x192 .f32) (x1 : Vec F S192x1024 .bf16) (x2 : Vec F S1x1024 .f32) (x3 : Vec F S1024x8192 .bf16) (x4 : Vec F S1x8192 .f32)
    (p : View.Piece (Elt F) S256x8192 .f32) (hp : p ∈ (kernelRun0 (F := F) c i arg1 harg1 arg2 harg2 arg3 harg3 arg4 harg4 arg5 harg5 arg6 harg6 x0 x1 x2 x3 x4).1) :
    ∃ k : Fin k0_t1_loop.trips, p = tripPiece arg4 arg5
      (arg1.view.readAt (Elt F) (Rect.unit (s := S256x192) ![0, 0] S256x192.size inb_S256x192_S256x192_0_0).toLoadRect (harg1.unread x0))
      (arg2.view.readAt (Elt F) (Rect.unit (s := S192x1024) ![0, 0] S192x1024.size inb_S192x1024_S192x1024_0_0).toLoadRect (harg2.unread x1))
      (arg3.view.readAt (Elt F) (Rect.unit (s := S1x1024) ![0, 0] S1x1024.size inb_S1x1024_S1x1024_0_0).toLoadRect (harg3.unread x2))
      (harg4.unread x3) (harg5.unread x4) k := by
  unfold kernelRun0 at hp
  exact mem_pb _ _ c i arg1 harg1 arg2 harg2 arg3 harg3 arg4 harg4 arg5 harg5 arg6 harg6 _ _ _ _ _ p _ hp

/-- The output's staging buffer after the body holds the canonical contents of the run's pieces. -/
theorem out0_5_canon (c : Dev nD) (i : grid0.Coords) (arg1 : Memref sig .tc .vmem S256x192 .f32) (harg1 : arg1.IsWhole) (arg2 : Memref sig .tc .vmem S192x1024 .bf16) (harg2 : arg2.IsWhole) (arg3 : Memref sig .tc .vmem S1x1024 .f32) (harg3 : arg3.IsWhole) (arg4 : Memref sig .tc .vmem S1024x8192 .bf16) (harg4 : arg4.IsWhole) (arg5 : Memref sig .tc .vmem S1x8192 .f32) (harg5 : arg5.IsWhole) (arg6 : Memref sig .tc .vmem S256x8192 .f32) (harg6 : arg6.IsWhole)
    (x0 : Vec F S256x192 .f32) (x1 : Vec F S192x1024 .bf16) (x2 : Vec F S1x1024 .f32) (x3 : Vec F S1024x8192 .bf16) (x4 : Vec F S1x8192 .f32) :
    out0_5 (F := F) c i arg1 harg1 arg2 harg2 arg3 harg3 arg4 harg4 arg5 harg5 arg6 harg6 x0 x1 x2 x3 x4 = View.canon (kernelRun0 (F := F) c i arg1 harg1 arg2 harg2 arg3 harg3 arg4 harg4 arg5 harg5 arg6 harg6 x0 x1 x2 x3 x4).1 := by
  unfold out0_5
  exact View.read_writes_eq_canon _ _ _ (cover0_5 c i arg1 harg1 arg2 harg2 arg3 harg3 arg4 harg4 arg5 harg5 arg6 harg6 x0 x1 x2 x3 x4)

end Cert.KernelIdeal.Around

end
-- ==== Proof.KI.PayAt.lean ====
/-
  The body's one stored value at one element, over the extended reals: two matrix products into zero
  accumulators read as plain sums over the contracted axis (192 features, then 1024 hidden units), each bias
  row broadcast down the 256 rows, the maximum with zero between them; narrowing to bf16 is the identity here.
-/
import proofs.«429558_j40819369181896_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section
namespace Cert.KernelIdeal.PayAt
open Cert.KernelIdeal Cert.KernelIdeal.Gen Idealize.ShloMosaic Idealize.ShloMosaic.ValueIdx

/-! ## The feature product: which operand elements meet at an output element -/

/-- The left operand's row is the output's row. -/
theorem lhs_feat_0 (i : S256x1024.Idx) (q : dot_S256x192_S192x1024_S256x1024_1_0_0_1_n_n.contr.Idx) :
    (dot_S256x192_S192x1024_S256x1024_1_0_0_1_n_n.lhsIdx i q 0).val = (i 0).val := by
  unfold DotDims.lhsIdx
  rw [dif_neg (show ¬(0 : Fin S256x192.rank) ∈ dot_S256x192_S192x1024_S256x1024_1_0_0_1_n_n.lhsBatch by decide), dif_pos (show (0 : Fin S256x192.rank) ∈ dot_S256x192_S192x1024_S256x1024_1_0_0_1_n_n.lhsNonContracting by decide)]
  rfl
/-- The left operand's column is the summation position. -/
theorem lhs_feat_1 (i : S256x1024.Idx) (q : dot_S256x192_S192x1024_S256x1024_1_0_0_1_n_n.contr.Idx) :
    (dot_S256x192_S192x1024_S256x1024_1_0_0_1_n_n.lhsIdx i q 1).val = (q ⟨0, by decide⟩).val :=
  dot_S256x192_S192x1024_S256x1024_1_0_0_1_n_n.lhsIdx_val_of_single rfl i q
/-- The right operand's row is the summation position. -/
theorem rhs_feat_0 (i : S256x1024.Idx) (q : dot_S256x192_S192x1024_S256x1024_1_0_0_1_n_n.contr.Idx) :
    (dot_S256x192_S192x1024_S256x1024_1_0_0_1_n_n.rhsIdx i q 0).val = (q ⟨0, by decide⟩).val :=
  dot_S256x192_S192x1024_S256x1024_1_0_0_1_n_n.rhsIdx_val_of_single rfl i q
/-- The right operand's column is the output's column. -/
theorem rhs_feat_1 (i : S256x1024.Idx) (q : dot_S256x192_S192x1024_S256x1024_1_0_0_1_n_n.contr.Idx) :
    (dot_S256x192_S192x1024_S256x1024_1_0_0_1_n_n.rhsIdx i q 1).val = (i 1).val := by
  unfold DotDims.rhsIdx
  rw [dif_neg (show ¬(1 : Fin S192x1024.rank) ∈ dot_S256x192_S192x1024_S256x1024_1_0_0_1_n_n.rhsBatch by decide), dif_pos (show (1 : Fin S192x1024.rank) ∈ dot_S256x192_S192x1024_S256x1024_1_0_0_1_n_n.rhsNonContracting by decide)]
  rfl

/-- A 256x192 by 192x1024 product into the zero accumulator, at (r, c): row r of the left operand against column c of the right one. -/
theorem matmul_feat_apply {φ₁ φ₂ : FTy} (A : FVec Ideal S256x192 φ₁) (B : FVec Ideal S192x1024 φ₂) (r : Fin 256) (c : Fin 1024) :
    matmul dot_S256x192_S192x1024_S256x1024_1_0_0_1_n_n none A B (constant (F := Ideal) S256x1024 .f32 0x00000000#32) (ix2 r c)
      = ∑ k : Fin 192, A (ix2 r k) * B (ix2 k c) := by
  simp only [matmul]
  rw [Ideal.matmul_constant_zero_apply, ← Equiv.sum_comp (contrEquiv1 dot_S256x192_S192x1024_S256x1024_1_0_0_1_n_n 192 rfl rfl).symm]
  refine Finset.sum_congr rfl fun k _ => ?_
  have hk := contrEquiv1_symm_val dot_S256x192_S192x1024_S256x1024_1_0_0_1_n_n 192 rfl rfl k
  have el : dot_S256x192_S192x1024_S256x1024_1_0_0_1_n_n.lhsIdx (ix2 r c) ((contrEquiv1 dot_S256x192_S192x1024_S256x1024_1_0_0_1_n_n 192 rfl rfl).symm k) = ix2 r k := funext fun a => Fin.ext (by
    match a with
    | ⟨0, _⟩ => exact lhs_feat_0 _ _
    | ⟨1, _⟩ => exact (lhs_feat_1 _ _).trans hk)
  have er : dot_S256x192_S192x1024_S256x1024_1_0_0_1_n_n.rhsIdx (ix2 r c) ((contrEquiv1 dot_S256x192_S192x1024_S256x1024_1_0_0_1_n_n 192 rfl rfl).symm k) = ix2 k c := funext fun a => Fin.ext (by
    match a with
    | ⟨0, _⟩ => exact (rhs_feat_0 _ _).trans hk
    | ⟨1, _⟩ => exact rhs_feat_1 _ _)
  rw [el, er]

/-! ## The hidden product: which operand elements meet at an output element -/

/-- The left operand's row is the output's row. -/
theorem lhs_hid_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
/-- The left operand's column is the summation position. -/
theorem lhs_hid_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
/-- The right operand's row is the summation position. -/
theorem rhs_hid_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
/-- The right operand's column is the output's column. -/
theorem rhs_hid_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- A 256x1024 by 1024x1024 product into the zero accumulator, at (r, c): row r of the left operand against column c of the right one. -/
theorem matmul_hid_apply {φ₁ φ₂ : FTy} (A : FVec Ideal S256x1024 φ₁) (B : FVec Ideal S1024x1024 φ₂) (r : Fin 256) (c : Fin 1024) :
    matmul dot_S256x1024_S1024x1024_S256x1024_1_0_0_1_n_n none A B (constant (F := Ideal) S256x1024 .f32 0x00000000#32) (ix2 r c)
      = ∑ k : Fin 1024, A (ix2 r k) * B (ix2 k c) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 r c) ((contrEquiv1 dot_S256x1024_S1024x1024_S256x1024_1_0_0_1_n_n 1024 rfl rfl).symm k) = ix2 r k := funext fun a => Fin.ext (by
    match a with
    | ⟨0, _⟩ => exact lhs_hid_0 _ _
    | ⟨1, _⟩ => exact (lhs_hid_1 _ _).trans hk)
  have er : dot_S256x1024_S1024x1024_S256x1024_1_0_0_1_n_n.rhsIdx (ix2 r c) ((contrEquiv1 dot_S256x1024_S1024x1024_S256x1024_1_0_0_1_n_n 1024 rfl rfl).symm k) = ix2 k c := funext fun a => Fin.ext (by
    match a with
    | ⟨0, _⟩ => exact (rhs_hid_0 _ _).trans hk
    | ⟨1, _⟩ => exact rhs_hid_1 _ _)
  rw [el, er]

/-- One stored chunk at (r, q): the hidden row of r (the rectified affine image of the 192 features of row r) against column q of the chunk's 1024x1024 weights, plus the chunk's bias at q. -/
theorem pay_apply (x0 : Vec Ideal S256x192 .f32) (x1 : Vec Ideal S192x1024 .bf16) (x2 : Vec Ideal S1x1024 .f32)
    (w : Vec Ideal S1024x1024 .bf16) (b : Vec Ideal S1x1024 .f32) (r : Fin 256) (q : Fin 1024) :
    k0_pay1 (F := Ideal) x0 x1 x2 w b (ix2 r q)
      = (∑ h : Fin 1024, (max ((∑ f : Fin 192, x0 (ix2 r f) * x1 (ix2 f h)) + x2 (ix2 (0 : Fin 1) h)) (Ideal.ofBits .f32 0x00000000#32)) * w (ix2 h q))
        + b (ix2 (0 : Fin 1) q) := by
  unfold k0_pay1
  simp only [shapeCast_self]
  -- the outer sum and the bias row
  rw [addf_apply, matmul_hid_apply, broadcastTo_1b_ab_apply]
  refine congrArg (· + b (ix2 (0 : Fin 1) q)) (Finset.sum_congr rfl fun h _ => ?_)
  -- one hidden unit: narrowing is the identity, the maximum and the sum are pointwise
  rw [truncf_apply, maximumf_apply, addf_apply, matmul_feat_apply, broadcastTo_1b_ab_apply, broadcast_apply]
  refine congrArg (fun t => max (t + x2 (ix2 (0 : Fin 1) h)) _ * w (ix2 h q)) (Finset.sum_congr rfl fun f _ => ?_)
  rw [truncf_apply]

end Cert.KernelIdeal.PayAt
end
-- ==== Proof.KI.BlockVal.lean ====
/-
  The output block as one function of the five input blocks, over the extended reals. At (r, v) of the
  256x8192 block, with x0 the 256x192 feature rows, x1 the 192x1024 first weights, x2 the first bias row, x3 the
  1024x8192 second weights and x4 the second bias row:

      ∑ₕ max(∑_f x0[r, f] · x1[f, h] + x2[0, h], 0) · x3[h, v]  +  x4[0, v].

  Column v lies in chunk k = v / 1024, which trip k of the loop stores from the k-th column chunk of x3 and x4;
  every stored chunk is this function restricted to its columns, so the canonical contents of the stores is
  this function wherever some store covers, which is everywhere.
-/
import proofs.«429558_j40819369181896_3_alg».proof.Proof.KI.Pieces
import proofs.«429558_j40819369181896_3_alg».proof.Proof.KI.PayAt

set_option maxRecDepth 16384

noncomputable section

namespace Cert.KernelIdeal.Around

open Cert.KernelIdeal Cert.KernelIdeal.Gen
open Idealize.ShloMosaic Idealize.ShloMosaic.TcCoe Idealize.ShloMosaic.ValueIdx
open Idealize.SL Idealize.SL.Sem

/-- The block function. -/
def Gblk (x0 : Vec Ideal S256x192 .f32) (x1 : Vec Ideal S192x1024 .bf16) (x2 : Vec Ideal S1x1024 .f32)
    (x3 : Vec Ideal S1024x8192 .bf16) (x4 : Vec Ideal S1x8192 .f32) : Vec Ideal S256x8192 .f32 :=
  fun y => (∑ h : Fin 1024, (max ((∑ f : Fin 192, x0 (ix2 (y 0) f) * x1 (ix2 f h)) + x2 (ix2 (0 : Fin 1) h)) (Ideal.ofBits .f32 0x00000000#32))
      * x3 (ix2 h (y 1))) + x4 (ix2 (0 : Fin 1) (y 1))

theorem hz2 : (![0, 0] : Fin 2 → Nat) = fun _ => 0 := by
  funext a; match a with | ⟨0, _⟩ => rfl | ⟨1, _⟩ => rfl

/-- A trip index is below 8. -/
theorem trip_lt (k : Fin k0_t1_loop.trips) : k.val < 8 := Nat.lt_of_lt_of_le k.isLt k0_t1_abs.2.1

/-- Where trip `k`'s chunk sits in the block: same row, column 1024·k further. -/
theorem chunk_emb (k : Fin k0_t1_loop.trips) (r : Fin 256) (q : Fin 1024) :
    (Rect.unit (s := S256x8192) (k0_off3 k) S256x1024.size (k0_off3_inb k)).emb (ix2 r q)
      = ix2 r (⟨1024 * k.val + q.val, by have := trip_lt k; omega⟩ : Fin 8192) := by
  funext a
  refine Fin.ext ?_
  rw [Rect.emb_apply]
  match a with
  | ⟨0, _⟩ => show (k0_off3 k) 0 + 1 * r.val = r.val; rw [k0_off3_eq]; simp
  | ⟨1, _⟩ => show (k0_off3 k) 1 + 1 * q.val = 1024 * k.val + q.val; rw [k0_off3_eq]; simp

/-- The k-th column chunk of the second weights, as the trip loads it. -/
theorem w2_chunk (arg4 : Memref sig .tc .vmem S1024x8192 .bf16) (harg4 : arg4.IsWhole) (x3 : Vec Ideal S1024x8192 .bf16)
    (k : Fin k0_t1_loop.trips) (h : Fin 1024) (q : Fin 1024) :
    arg4.view.readAt (Elt Ideal) (Rect.unit (s := S1024x8192) (k0_off1 k) S1024x1024.size (k0_off1_inb k)).toLoadRect (harg4.unread x3) (ix2 h q)
      = x3 (ix2 h (⟨1024 * k.val + q.val, by have := trip_lt k; omega⟩ : Fin 8192)) := by
  rw [View.readAt_apply, harg4.read_unread]
  refine congrArg x3 (funext fun a => Fin.ext ?_)
  rw [LoadRect.idx_apply]
  match a with
  | ⟨0, _⟩ => show (k0_off1 k) 0 + 1 * h.val = h.val; rw [k0_off1_eq]; simp
  | ⟨1, _⟩ => show (k0_off1 k) 1 + 1 * q.val = 1024 * k.val + q.val; rw [k0_off1_eq]; simp

/-- The k-th column chunk of the second bias row, as the trip loads it. -/
theorem b2_chunk (arg5 : Memref sig .tc .vmem S1x8192 .f32) (harg5 : arg5.IsWhole) (x4 : Vec Ideal S1x8192 .f32)
    (k : Fin k0_t1_loop.trips) (q : Fin 1024) :
    arg5.view.readAt (Elt Ideal) (Rect.unit (s := S1x8192) (k0_off2 k) S1x1024.size (k0_off2_inb k)).toLoadRect (harg5.unread x4) (ix2 (0 : Fin 1) q)
      = x4 (ix2 (0 : Fin 1) (⟨1024 * k.val + q.val, by have := trip_lt k; omega⟩ : Fin 8192)) := by
  rw [View.readAt_apply, harg5.read_unread]
  refine congrArg x4 (funext fun a => Fin.ext ?_)
  rw [LoadRect.idx_apply]
  match a with
  | ⟨0, _⟩ => show (k0_off2 k) 0 + 1 * 0 = 0; rw [k0_off2_eq]; simp
  | ⟨1, _⟩ => show (k0_off2 k) 1 + 1 * q.val = 1024 * k.val + q.val; rw [k0_off2_eq]; simp

/-- A load of a whole staging buffer reads its contents. -/
theorem load_whole {S : Shape} {e : EltTy} (M : Memref sig .tc .vmem S e) (hM : M.IsWhole) (X : S.Idx → Elt Ideal e)
    {off : Fin S.rank → Nat} (hoff : off = fun _ => 0) (inb : ∀ a, off a + S.size a ≤ S.size a) :
    M.view.readAt (Elt Ideal) (Rect.unit (s := S) off S.size inb).toLoadRect (hM.unread X) = X := by
  rw [View.readAt_eq_ld, hM.read_unread, View.ld_unit_zero hoff]

/-- After the body the output's staging buffer holds the block function of the five input blocks. -/
theorem out0_5_eq (c : Dev nD) (i : grid0.Coords) (arg1 : Memref sig .tc .vmem S256x192 .f32) (harg1 : arg1.IsWhole) (arg2 : Memref sig .tc .vmem S192x1024 .bf16) (harg2 : arg2.IsWhole) (arg3 : Memref sig .tc .vmem S1x1024 .f32) (harg3 : arg3.IsWhole) (arg4 : Memref sig .tc .vmem S1024x8192 .bf16) (harg4 : arg4.IsWhole) (arg5 : Memref sig .tc .vmem S1x8192 .f32) (harg5 : arg5.IsWhole) (arg6 : Memref sig .tc .vmem S256x8192 .f32) (harg6 : arg6.IsWhole)
    (x0 : Vec Ideal S256x192 .f32) (x1 : Vec Ideal S192x1024 .bf16) (x2 : Vec Ideal S1x1024 .f32) (x3 : Vec Ideal S1024x8192 .bf16) (x4 : Vec Ideal S1x8192 .f32) :
    out0_5 (F := Ideal) c i arg1 harg1 arg2 harg2 arg3 harg3 arg4 harg4 arg5 harg5 arg6 harg6 x0 x1 x2 x3 x4 = Gblk x0 x1 x2 x3 x4 := by
  rw [out0_5_canon]
  funext y
  refine View.canon_apply_of_pieces (Gblk x0 x1 x2 x3 x4) _ (fun p hp x => ?_) y (cover0_5 c i arg1 harg1 arg2 harg2 arg3 harg3 arg4 harg4 arg5 harg5 arg6 harg6 x0 x1 x2 x3 x4 y)
  obtain ⟨k, rfl⟩ := mem_run c i arg1 harg1 arg2 harg2 arg3 harg3 arg4 harg4 arg5 harg5 arg6 harg6 x0 x1 x2 x3 x4 p hp
  obtain ⟨r, q, rfl⟩ : ∃ (r : Fin 256) (q : Fin 1024), x = ix2 r q := ⟨x 0, x 1, eq_ix2 x⟩
  show k0_pay1 (F := Ideal) _ _ _ _ _ (ix2 r q) = Gblk x0 x1 x2 x3 x4 ((Rect.unit (s := S256x8192) (k0_off3 k) S256x1024.size (k0_off3_inb k)).emb (ix2 r q))
  rw [Cert.KernelIdeal.PayAt.pay_apply, chunk_emb, load_whole arg1 harg1 x0 hz2, load_whole arg2 harg2 x1 hz2, load_whole arg3 harg3 x2 hz2, b2_chunk arg5 harg5 x4 k q]
  unfold Gblk
  refine congrArg (· + _) (Finset.sum_congr rfl fun h _ => ?_)
  rw [w2_chunk arg4 harg4 x3 k h q]

end Cert.KernelIdeal.Around

end
-- ==== Proof.KI.Final.lean ====
/-
  From blocks to the array, and from the array to the program's result. Grid point t writes back rows
  256·t … 256·t + 255 of the [16384, 8192] output array; what it writes is the block function of the five
  input blocks at t, and those blocks are rows 256·t … of the feature rows and the whole of the other four
  arrays. So the output array ends at ONE function of the five arrays the launch found, index by index; the
  64 blocks tile the array. The program's result is that array re-laid as [16, 1024, 8192].
-/
import proofs.«429558_j40819369181896_3_alg».proof.Proof.KI.BlockVal
import Idealize.ShloMosaic.Lib.Pipeline.Value

set_option maxRecDepth 16384

noncomputable section

namespace Cert.KernelIdeal.Around

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The output array as one function of the five arrays the launch reads. -/
def Garr (X : Vec Ideal S16384x192 .f32) (W1 : Vec Ideal S192x1024 .bf16) (B1 : Vec Ideal S1x1024 .f32)
    (W2 : Vec Ideal S1024x8192 .bf16) (B2 : Vec Ideal S1x8192 .f32) : Vec Ideal S16384x8192 .f32 :=
  fun j => (∑ h : Fin 1024, (max ((∑ f : Fin 192, X (ix2 (j 0) f) * W1 (ix2 f h)) + B1 (ix2 (0 : Fin 1) h)) (Ideal.ofBits .f32 0x00000000#32))
      * W2 (ix2 h (j 1))) + B2 (ix2 (0 : Fin 1) (j 1))

/-- The printed index maps over the grid: the feature rows and the output move one block of 256 rows per point;
    the other four windows stay at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The five input blocks at a point and the five arrays at the launch, at their literal types. -/
abbrev xblk (c : Dev nD) (t : Fin cfg0.N) : Vec Ideal S256x192 .f32 := iblk m c 0 t
abbrev w1blk (c : Dev nD) (t : Fin cfg0.N) : Vec Ideal S192x1024 .bf16 := iblk m c 1 t
abbrev b1blk (c : Dev nD) (t : Fin cfg0.N) : Vec Ideal S1x1024 .f32 := iblk m c 2 t
abbrev w2blk (c : Dev nD) (t : Fin cfg0.N) : Vec Ideal S1024x8192 .bf16 := iblk m c 3 t
abbrev b2blk (c : Dev nD) (t : Fin cfg0.N) : Vec Ideal S1x8192 .f32 := iblk m c 4 t
abbrev xarr (c : Dev nD) : Vec Ideal S16384x192 .f32 := V m c main_v106
abbrev w1arr (c : Dev nD) : Vec Ideal S192x1024 .bf16 := V m c main_v107
abbrev b1arr (c : Dev nD) : Vec Ideal S1x1024 .f32 := V m c main_v109
abbrev w2arr (c : Dev nD) : Vec Ideal S1024x8192 .bf16 := V m c main_v108
abbrev b2arr (c : Dev nD) : Vec Ideal S1x8192 .f32 := V m c main_v110

/-- A grid point is below 64. -/
theorem pt_lt (t : Fin cfg0.N) : t.val < 64 := by
  have h : t.val < grid0.N := t.isLt
  rwa [N_0] at h

/-- Row r of the feature block at point t is row 256·t + r of the feature rows. -/
theorem xblk_read (c : Dev nD) (t : Fin cfg0.N) (r : Fin 256) (f : Fin 192) :
    xblk m c t (ix2 r f) = xarr m c (ix2 (⟨256 * t.val + r.val, by have := pt_lt t; omega⟩ : Fin 16384) f) := by
  obtain ⟨e00, e01, -⟩ := idx_facts t
  show V m c main_v106 (((cfg0.win 0).blk t).view.emb (ix2 r f : S256x192.Idx)) = _
  refine congrArg _ (funext fun a => Fin.ext ?_)
  match a with
  | ⟨0, _⟩ => show win0_0.index t (0 : Fin 2) * 256 + 1 * r.val = 256 * t.val + r.val; omega
  | ⟨1, _⟩ => show win0_0.index t (1 : Fin 2) * 192 + 1 * f.val = f.val; omega

/-- The other four blocks are the whole arrays. -/
theorem w1blk_read (c : Dev nD) (t : Fin cfg0.N) (f : Fin 192) (h : Fin 1024) :
    w1blk m c t (ix2 f h) = w1arr m c (ix2 f h) := by
  obtain ⟨-, -, e10, e11, -⟩ := idx_facts t
  show V m c main_v107 (((cfg0.win 1).blk t).view.emb (ix2 f h : S192x1024.Idx)) = _
  refine congrArg _ (funext fun a => Fin.ext ?_)
  match a with
  | ⟨0, _⟩ => show win0_1.index t (0 : Fin 2) * 192 + 1 * f.val = f.val; omega
  | ⟨1, _⟩ => show win0_1.index t (1 : Fin 2) * 1024 + 1 * h.val = h.val; omega

theorem b1blk_read (c : Dev nD) (t : Fin cfg0.N) (h : Fin 1024) :
    b1blk m c t (ix2 (0 : Fin 1) h) = b1arr m c (ix2 (0 : Fin 1) h) := by
  obtain ⟨-, -, -, -, e20, e21, -⟩ := idx_facts t
  show V m c main_v109 (((cfg0.win 2).blk t).view.emb (ix2 (0 : Fin 1) h : S1x1024.Idx)) = _
  refine congrArg _ (funext fun a => Fin.ext ?_)
  match a with
  | ⟨0, _⟩ => show win0_2.index t (0 : Fin 2) * 1 + 1 * 0 = 0; omega
  | ⟨1, _⟩ => show win0_2.index t (1 : Fin 2) * 1024 + 1 * h.val = h.val; omega

theorem w2blk_read (c : Dev nD) (t : Fin cfg0.N) (h : Fin 1024) (v : Fin 8192) :
    w2blk m c t (ix2 h v) = w2arr m c (ix2 h v) := by
  obtain ⟨-, -, -, -, -, -, e30, e31, -⟩ := idx_facts t
  show V m c main_v108 (((cfg0.win 3).blk t).view.emb (ix2 h v : S1024x8192.Idx)) = _
  refine congrArg _ (funext fun a => Fin.ext ?_)
  match a with
  | ⟨0, _⟩ => show win0_3.index t (0 : Fin 2) * 1024 + 1 * h.val = h.val; omega
  | ⟨1, _⟩ => show win0_3.index t (1 : Fin 2) * 8192 + 1 * v.val = v.val; omega

theorem b2blk_read (c : Dev nD) (t : Fin cfg0.N) (v : Fin 8192) :
    b2blk m c t (ix2 (0 : Fin 1) v) = b2arr m c (ix2 (0 : Fin 1) v) := by
  obtain ⟨-, -, -, -, -, -, -, -, e40, e41, -⟩ := idx_facts t
  show V m c main_v110 (((cfg0.win 4).blk t).view.emb (ix2 (0 : Fin 1) v : S1x8192.Idx)) = _
  refine congrArg _ (funext fun a => Fin.ext ?_)
  match a with
  | ⟨0, _⟩ => show win0_4.index t (0 : Fin 2) * 1 + 1 * 0 = 0; omega
  | ⟨1, _⟩ => show win0_4.index t (1 : Fin 2) * 8192 + 1 * v.val = v.val; omega

/-- Where an element of the output block at point t sits in the output array. -/
theorem oblk_emb (t : Fin cfg0.N) (r : Fin 256) (v : Fin 8192) :
    ((cfg0.win 5).blk t).view.emb (ix2 r v : S256x8192.Idx) = (ix2 (⟨256 * t.val + r.val, by have := pt_lt t; omega⟩ : Fin 16384) v : S16384x8192.Idx) := by
  obtain ⟨-, -, -, -, -, -, -, -, -, -, e50, e51⟩ := idx_facts t
  refine funext fun a => Fin.ext ?_
  match a with
  | ⟨0, _⟩ => show win0_5.index t (0 : Fin 2) * 256 + 1 * r.val = 256 * t.val + r.val; omega
  | ⟨1, _⟩ => show win0_5.index t (1 : Fin 2) * 8192 + 1 * v.val = v.val; omega

/-- The block function of the blocks at point t is the array function at the block's place in the array. -/
theorem Gblk_eq_Garr (c : Dev nD) (t : Fin cfg0.N) (r : Fin 256) (v : Fin 8192) :
    Gblk (xblk m c t) (w1blk m c t) (b1blk m c t) (w2blk m c t) (b2blk m c t) (ix2 r v)
      = Garr (xarr m c) (w1arr m c) (b1arr m c) (w2arr m c) (b2arr m c) (ix2 (⟨256 * t.val + r.val, by have := pt_lt t; omega⟩ : Fin 16384) v) := by
  unfold Gblk Garr
  show (∑ h : Fin 1024, (max ((∑ f : Fin 192, xblk m c t (ix2 r f) * w1blk m c t (ix2 f h)) + b1blk m c t (ix2 (0 : Fin 1) h)) (Ideal.ofBits .f32 0x00000000#32)) * w2blk m c t (ix2 h v)) + b2blk m c t (ix2 (0 : Fin 1) v)
    = (∑ h : Fin 1024, (max ((∑ f : Fin 192, xarr m c (ix2 (⟨256 * t.val + r.val, by have := pt_lt t; omega⟩ : Fin 16384) f) * w1arr m c (ix2 f h)) + b1arr m c (ix2 (0 : Fin 1) h)) (Ideal.ofBits .f32 0x00000000#32)) * w2arr m c (ix2 h v)) + b2arr m c (ix2 (0 : Fin 1) v)
  rw [b2blk_read]
  refine congrArg (· + _) (Finset.sum_congr rfl fun h _ => ?_)
  rw [w2blk_read, b1blk_read]
  refine congrArg (· * _) (congrArg (max · _) (congrArg (· + _) (Finset.sum_congr rfl fun f _ => ?_)))
  rw [xblk_read, w1blk_read]

/-- What point `t` writes back is block `t` of `Garr` of the arrays as the launch finds them. -/
theorem flushed5_eq (c : Dev nD) (t : Fin cfg0.N) :
    (dats m 0 c).flushed 5 t = ((cfg0.win 5).blk t).view.read (Elt Ideal)
      (Garr (xarr m c) (w1arr m c) (b1arr m c) (w2arr m c) (b2arr m c)) := by
  show (cfg0.win 5).cut (grid0.coords t) ((dats m 0 c).after 5 t) = _
  rw [after0_5]
  unfold outsAt0
  rw [out0_5_eq]
  funext j
  obtain ⟨r, v, rfl⟩ : ∃ (r : Fin 256) (v : Fin 8192), j = ix2 r v := ⟨j 0, j 1, eq_ix2 j⟩
  show Gblk (xblk m c t) (w1blk m c t) (b1blk m c t) (w2blk m c t) (b2blk m c t) (ix2 r v)
    = Garr (xarr m c) (w1arr m c) (b1arr m c) (w2arr m c) (b2arr m c) (((cfg0.win 5).blk t).view.emb (ix2 r v : S256x8192.Idx))
  rw [oblk_emb, Gblk_eq_Garr]

/-- An index of the output array is in point `t`'s block iff each coordinate is in the block's range. -/
theorem mem_blk5 (t : Fin cfg0.N) (i : S16384x8192.Idx) :
    i ∈ ((cfg0.win 5).blk t).view.set ↔ ∀ a : Fin 2, win0_5.index t a * S256x8192.size a ≤ (i a).val ∧ (i a).val < win0_5.index t a * S256x8192.size a + S256x8192.size a := by
  show i ∈ ((View.whole main_v111).slice (win0_5.rect t)).set ↔ _
  rw [View.set_slice_whole, Rect.mem_set_unit]
  exact Iff.rfl

/-- Every block row of the array is some point's. -/
theorem idx_onto5 : ∀ q0 : Fin 64, ∃ t : Fin cfg0.N, win0_5.index t (0 : Fin 2) = q0.val ∧ win0_5.index t (1 : Fin 2) = 0 :=
  (by decide +kernel : ∀ q0 : Fin 64, ∃ t : Fin grid0.N, win0_5.index t (0 : Fin 2) = q0.val ∧ win0_5.index t (1 : Fin 2) = 0)

/-- The 64 blocks tile the output array. -/
theorem cover5 (i : S16384x8192.Idx) : ∃ t : Fin cfg0.N, (cfg0.win 5).flush t = true ∧ i ∈ ((cfg0.win 5).blk t).view.set := by
  have hi0 : (i 0).val < 16384 := (i 0).isLt
  have hi1 : (i 1).val < 8192 := (i 1).isLt
  obtain ⟨t, q0, q1⟩ := idx_onto5 ⟨(i 0).val / 256, by omega⟩
  refine ⟨t, flush0_5 t, ?_⟩
  rw [mem_blk5]
  intro a
  match a with
  | ⟨0, _⟩ => show win0_5.index t (0 : Fin 2) * 256 ≤ (i 0).val ∧ (i 0).val < win0_5.index t (0 : Fin 2) * 256 + 256; rw [q0]; show (i 0).val / 256 * 256 ≤ (i 0).val ∧ (i 0).val < (i 0).val / 256 * 256 + 256; omega
  | ⟨1, _⟩ => show win0_5.index t (1 : Fin 2) * 8192 ≤ (i 1).val ∧ (i 1).val < win0_5.index t (1 : Fin 2) * 8192 + 8192; omega

/-- The output array after the run. -/
theorem final5 (c : Dev nD) : (dats m 0 c).arrAt 5 cfg0.N
    = Garr (xarr m c) (w1arr m c) (b1arr m c) (w2arr m c) (b2arr m c) :=
  (dats m 0 c).arrAt_eq_of_cover 5 _ (fun t _ => flushed5_eq m c t) cover5

/-- The program's result: the output array re-laid as [16, 1024, 8192]. -/
theorem result_eq (c : Dev nD) : Pipeline.afterTail₀ cfgs (dats m) 0 (V0 m) [hostOps1] c main_v112
    = fun i => shapeCast S16x1024x8192 (Garr (xarr m c) (w1arr m c) (b1arr m c) (w2arr m c) (b2arr m c)) shapeCasts_S16384x8192_S16x1024x8192 i := by
  unfold Pipeline.afterTail₀
  show StableHlo.after hostOps1 _ (Proc.devRef .tc main_v112) = _
  after_results
  rw [Pipeline.withArrays_arr spec0 launch0.win.arr_inj c _ _ 5, final5]
  rfl

end Cert.KernelIdeal.Around

end
-- ==== Proof.Spec.lean ====
/-
  The function both programs compute, over the extended reals, index by index.

  With `feat` the [16, 1024, 192] feature array (the byte embedding and the four hashed-table rows of a
  position, concatenated), the result at (b, s, v) is

      ∑ₕ relu(∑_f feat[b, s, f] · W1[f, h] + b1[h]) · W2[h, v]  +  b2[v],      relu x = max x 0.

  No program is imported here: the shapes are literal.
-/
import Idealize.ShloMosaic.PureOps.Ideal
import Idealize.ShloMosaic.Lib.ValueIdx

noncomputable section

namespace Cert.Spec

open Idealize.ShloMosaic Idealize.ShloMosaic.ValueIdx

/-- The literal shapes. -/
abbrev Sfeat : Shape := ⟨3, ![16, 1024, 192]⟩
abbrev Sw1 : Shape := ⟨2, ![192, 1024]⟩
abbrev Sb1 : Shape := ⟨1, ![1024]⟩
abbrev Sw2 : Shape := ⟨2, ![1024, 8192]⟩
abbrev Sb2 : Shape := ⟨1, ![8192]⟩
abbrev Sout : Shape := ⟨3, ![16, 1024, 8192]⟩

/-- The hidden layer at row (b, s), unit h: the rectified affine image of the row's features. -/
def hid (feat : Sfeat.Idx → EReal) (w1 : Sw1.Idx → EReal) (b1 : Sb1.Idx → EReal) (b : Fin 16) (s : Fin 1024) (h : Fin 1024) : EReal :=
  max ((∑ f : Fin 192, feat (ix3 b s f) * w1 (ix2 f h)) + b1 (ix1 h)) (Ideal.ofBits .f32 0x00000000#32)

/-- The logits at (b, s, v): the affine image of the hidden row. -/
def out (feat : Sfeat.Idx → EReal) (w1 : Sw1.Idx → EReal) (b1 : Sb1.Idx → EReal) (w2 : Sw2.Idx → EReal) (b2 : Sb2.Idx → EReal)
    (i : Sout.Idx) : EReal :=
  (∑ h : Fin 1024, hid feat w1 b1 (i 0) (i 1) h * w2 (ix2 h (i 2))) + b2 (ix1 (i 2))

end Cert.Spec

end
-- ==== Proof.KI.Bridge.lean ====
/-
  The array function, at the arrays the host lines before the launch build, re-laid as [16, 1024, 8192], is
  the specification. The feature rows are the [16, 1024, 192] feature array read row-major: row 1024·b + s is
  position (b, s); the output row likewise. The weights pass through a change of float format, which is the
  identity over the extended reals; each bias row is the bias vector as a one-row matrix.
-/
import proofs.«429558_j40819369181896_3_alg».proof.Proof.KI.Final
import proofs.«429558_j40819369181896_3_alg».proof.Proof.Spec
import Idealize.ShloMosaic.Lib.ValueLayout

set_option maxRecDepth 16384

noncomputable section

namespace Cert.KernelIdeal.Around

open Cert.KernelIdeal Cert.KernelIdeal.Gen
open Idealize.ShloMosaic Idealize.ShloMosaic.TcCoe Idealize.ShloMosaic.ValueIdx

theorem Garr_is_out (feat : Vec Ideal S16x1024x192 .f32) (W1 : FVec Ideal S192x1024 .f32) (b1 : Vec Ideal S1024 .f32)
    (W2 : FVec Ideal S1024x8192 .f32) (b2 : Vec Ideal S8192 .f32) :
    (fun i => shapeCast S16x1024x8192
        (Garr (fun j => shapeCast S16384x192 feat shapeCasts_S16x1024x192_S16384x192 j) (truncf (F := Ideal) .bf16 W1 bitsLt_bf16_f32)
          (fun j => shapeCast S1x1024 b1 shapeCasts_S1024_S1x1024 j) (truncf (F := Ideal) .bf16 W2 bitsLt_bf16_f32)
          (fun j => shapeCast S1x8192 b2 shapeCasts_S8192_S1x8192 j))
        shapeCasts_S16384x8192_S16x1024x8192 i)
      = Cert.Spec.out feat W1 b1 W2 b2 := by
  funext i
  obtain ⟨b, s, v, rfl⟩ : ∃ (b : Fin 16) (s : Fin 1024) (v : Fin 8192), i = ix3 b s v := ⟨i 0, i 1, i 2, eq_ix3 i⟩
  have hR : 1024 * b.val + s.val < 16384 := by omega
  rw [shapeCast_apply _ shapeCasts_S16384x8192_S16x1024x8192 (ix3 b s v) (ix2 (⟨1024 * b.val + s.val, hR⟩ : Fin 16384) v) (by
    rw [Shape.rowMajor_val_two, Shape.rowMajor_val_three]
    show (1024 * b.val + s.val) * 8192 + v.val = (b.val * 1024 + s.val) * 8192 + v.val
    omega)]
  unfold Garr Cert.Spec.out Cert.Spec.hid
  show (∑ h : Fin 1024, max ((∑ f : Fin 192, shapeCast S16384x192 feat shapeCasts_S16x1024x192_S16384x192 (ix2 (⟨1024 * b.val + s.val, hR⟩ : Fin 16384) f) * W1 (ix2 f h))
        + shapeCast S1x1024 b1 shapeCasts_S1024_S1x1024 (ix2 (0 : Fin 1) h)) (Ideal.ofBits .f32 0x00000000#32) * W2 (ix2 h v))
      + shapeCast S1x8192 b2 shapeCasts_S8192_S1x8192 (ix2 (0 : Fin 1) v)
    = (∑ h : Fin 1024, max ((∑ f : Fin 192, feat (ix3 b s f) * W1 (ix2 f h)) + b1 (ix1 h)) (Ideal.ofBits .f32 0x00000000#32) * W2 (ix2 h v)) + b2 (ix1 v)
  rw [shapeCast_a_1a_apply]
  refine congrArg (· + _) (Finset.sum_congr rfl fun h _ => ?_)
  rw [shapeCast_a_1a_apply]
  refine congrArg (· * _) (congrArg (max · _) (congrArg (· + _) (Finset.sum_congr rfl fun f _ => ?_)))
  rw [shapeCast_apply feat shapeCasts_S16x1024x192_S16384x192 (ix2 (⟨1024 * b.val + s.val, hR⟩ : Fin 16384) f) (ix3 b s f) (by
    rw [Shape.rowMajor_val_two, Shape.rowMajor_val_three]
    show (b.val * 1024 + s.val) * 192 + f.val = (1024 * b.val + s.val) * 192 + f.val
    omega)]

end Cert.KernelIdeal.Around

end
-- ==== Proof.LibConcat5.lean ====
/-
  A concatenate of FIVE arrays with the five pieces as five plain arguments. The library's concatenate takes a
  list of (shape, array) pairs and a proof about the list's shapes; a rewriting pass does not descend into such
  a list (the proof's statement mentions it). Here the five arrays stand as arguments of their own and the
  proof mentions the five shapes only, so each piece can be rewritten on its own; by definition it is the
  library's concatenate of the five pairs.

  General: any element type, any shapes, any axis.
-/
import Idealize.ShloMosaic.PureOps

noncomputable section

namespace Cert.LibConcat5

open Idealize.ShloMosaic

/-- The concatenation of five arrays along axis `ax`, the pieces as separate arguments. -/
def concat5 {α : Type} (t : Shape) (ax : Fin t.rank) (s0 s1 s2 s3 s4 : Shape)
    (a0 : s0.Idx → α) (a1 : s1.Idx → α) (a2 : s2.Idx → α) (a3 : s3.Idx → α) (a4 : s4.Idx → α)
    (h : Shape.Concatenates [s0, s1, s2, s3, s4] t ax) : t.Idx → α :=
  concatenate t ax [⟨s0, a0⟩, ⟨s1, a1⟩, ⟨s2, a2⟩, ⟨s3, a3⟩, ⟨s4, a4⟩] h

/-- It is the library's concatenate of the five (shape, array) pairs. -/
theorem concat5_eq {α : Type} (t : Shape) (ax : Fin t.rank) (s0 s1 s2 s3 s4 : Shape)
    (a0 : s0.Idx → α) (a1 : s1.Idx → α) (a2 : s2.Idx → α) (a3 : s3.Idx → α) (a4 : s4.Idx → α)
    (h : Shape.Concatenates [s0, s1, s2, s3, s4] t ax) :
    concat5 t ax s0 s1 s2 s3 s4 a0 a1 a2 a3 a4 h = concatenate t ax [⟨s0, a0⟩, ⟨s1, a1⟩, ⟨s2, a2⟩, ⟨s3, a3⟩, ⟨s4, a4⟩] h := rfl

end Cert.LibConcat5

end
-- ==== Proof.KI.HostVals.lean ====
/-
  What the launch's five input arrays hold when it starts, as functions of the program's arguments: the
  [16384, 192] feature rows are the reference's own feature array (the same host lines build it in both
  programs) re-laid from [16, 1024, 192]; the two weight matrices are the arguments through the change of
  float format; the two bias rows are the arguments re-laid as one-row matrices.
-/
import proofs.«429558_j40819369181896_3_alg».proof.Proof.KI.Entry
import proofs.«429558_j40819369181896_3_alg».proof.Proof.RefRead
import proofs.«429558_j40819369181896_3_alg».proof.Proof.LibConcat5

set_option maxRecDepth 16384

noncomputable section

namespace Cert.KernelIdeal.Around

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- The feature array both programs build from the characters, the byte embedding and the hashed tables. -/
abbrev feat (c : Dev nD) : (⟨S16x1024x192, .f32⟩ : BufTy).Contents (Elt F) :=
  Cert.ReferenceIdeal.ReadP.val_main_v105 (F := F) (m ((c : Thread nD τ).loc main_arg0)) (m ((c : Thread nD τ).loc main_arg1)) (m ((c : Thread nD τ).loc main_arg2))

/-- The five-piece concatenate read at its result buffer: the concatenation of its five operands' contents, each at its own buffer. -/
theorem concat_read (hxs hy) (G : Valuation τ sig (Elt F)) :
    (StableHlo.nary ![main_v7, main_v30, main_v58, main_v81, main_v104] main_v105 (fun u => concatenate S16x1024x192 2 [⟨S16x1024x64, u 0⟩, ⟨S16x1024x32, u 1⟩, ⟨S16x1024x32, u 2⟩, ⟨S16x1024x32, u 3⟩, ⟨S16x1024x32, u 4⟩] concatenates_S16x1024x64_S16x1024x32_S16x1024x32_S16x1024x32_S16x1024x32_S16x1024x192_d2) hxs hy : HloOp τ sig (Elt F)).result G (no_index (Proc.devRef .tc main_v105))
      = Cert.LibConcat5.concat5 (α := Elt F .f32) S16x1024x192 2 S16x1024x64 S16x1024x32 S16x1024x32 S16x1024x32 S16x1024x32
          (G (Proc.devRef .tc main_v7)) (G (Proc.devRef .tc main_v30)) (G (Proc.devRef .tc main_v58)) (G (Proc.devRef .tc main_v81)) (G (Proc.devRef .tc main_v104))
          concatenates_S16x1024x64_S16x1024x32_S16x1024x32_S16x1024x32_S16x1024x32_S16x1024x192_d2 :=
  StableHlo.nary_result _ _ _ hxs hy G

set_option maxHeartbeats 4000000 in
theorem V_x (c : Dev nD) : V m c main_v106 = fun j => shapeCast S16384x192 (feat m c) shapeCasts_S16x1024x192_S16384x192 j := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  simp (disch := decide) only [after_cons, after_nil, nullary_result', unary_result', binary_result', ternary_result', quaternary_result', reshape_result', concat_read,
      nullary_result_ne', unary_result_ne', binary_result_ne', ternary_result_ne', quaternary_result_ne', reshape_result_ne', nary_result_ne']
  all_goals (try simp only [TRef.ofBuf, TRef.toBuf, cast_eq])
  all_goals rfl

set_option maxHeartbeats 4000000 in
theorem V_w1 (c : Dev nD) : V m c main_v107 = truncf .bf16 (m ((c : Thread nD τ).loc main_arg3)) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  simp (disch := decide) only [after_cons, after_nil, nullary_result', unary_result', binary_result', ternary_result', quaternary_result', reshape_result', concat_read,
      nullary_result_ne', unary_result_ne', binary_result_ne', ternary_result_ne', quaternary_result_ne', reshape_result_ne', nary_result_ne']
  all_goals (try simp only [TRef.ofBuf, TRef.toBuf, cast_eq])
  all_goals rfl

set_option maxHeartbeats 4000000 in
theorem V_w2 (c : Dev nD) : V m c main_v108 = truncf .bf16 (m ((c : Thread nD τ).loc main_arg5)) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  simp (disch := decide) only [after_cons, after_nil, nullary_result', unary_result', binary_result', ternary_result', quaternary_result', reshape_result', concat_read,
      nullary_result_ne', unary_result_ne', binary_result_ne', ternary_result_ne', quaternary_result_ne', reshape_result_ne', nary_result_ne']
  all_goals (try simp only [TRef.ofBuf, TRef.toBuf, cast_eq])
  all_goals rfl

set_option maxHeartbeats 4000000 in
theorem V_b1 (c : Dev nD) : V m c main_v109 = fun j => shapeCast S1x1024 (m ((c : Thread nD τ).loc main_arg4)) shapeCasts_S1024_S1x1024 j := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  simp (disch := decide) only [after_cons, after_nil, nullary_result', unary_result', binary_result', ternary_result', quaternary_result', reshape_result', concat_read,
      nullary_result_ne', unary_result_ne', binary_result_ne', ternary_result_ne', quaternary_result_ne', reshape_result_ne', nary_result_ne']
  all_goals (try simp only [TRef.ofBuf, TRef.toBuf, cast_eq])
  all_goals rfl

set_option maxHeartbeats 4000000 in
theorem V_b2 (c : Dev nD) : V m c main_v110 = fun j => shapeCast S1x8192 (m ((c : Thread nD τ).loc main_arg6)) shapeCasts_S8192_S1x8192 j := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  simp (disch := decide) only [after_cons, after_nil, nullary_result', unary_result', binary_result', ternary_result', quaternary_result', reshape_result', concat_read,
      nullary_result_ne', unary_result_ne', binary_result_ne', ternary_result_ne', quaternary_result_ne', reshape_result_ne', nary_result_ne']
  all_goals (try simp only [TRef.ofBuf, TRef.toBuf, cast_eq])
  all_goals rfl

end Cert.KernelIdeal.Around

end
-- ==== Proof.KI.Run.lean ====
/-
  The idealized kernel's run with its result named: every weakly fair execution ends with the result buffer
  at the specification of the feature array and the four affine-layer arguments, and the seven arguments
  unchanged.
-/
import proofs.«429558_j40819369181896_3_alg».proof.Proof.KI.Bridge
import proofs.«429558_j40819369181896_3_alg».proof.Proof.KI.HostVals

set_option maxRecDepth 16384

noncomputable section

namespace Cert.KernelIdeal.Around

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The array function at the arrays the launch found is the array function at what the host lines built. -/
theorem arrs_eq (c : Dev nD) :
    Garr (xarr m c) (w1arr m c) (b1arr m c) (w2arr m c) (b2arr m c)
      = Garr (fun j => shapeCast S16384x192 (feat m c) shapeCasts_S16x1024x192_S16384x192 j)
          (truncf (F := Ideal) .bf16 (m ((c : Thread nD τ).loc main_arg3)) bitsLt_bf16_f32)
          (fun j => shapeCast S1x1024 (m ((c : Thread nD τ).loc main_arg4)) shapeCasts_S1024_S1x1024 j)
          (truncf (F := Ideal) .bf16 (m ((c : Thread nD τ).loc main_arg5)) bitsLt_bf16_f32)
          (fun j => shapeCast S1x8192 (m ((c : Thread nD τ).loc main_arg6)) shapeCasts_S8192_S1x8192 j) := by
  show Garr (V m c main_v106) (V m c main_v107) (V m c main_v109) (V m c main_v108) (V m c main_v110) = _
  rw [V_x, V_w1, V_b1, V_w2, V_b2]

/-- The result of the whole program. -/
theorem result_is_out (c : Dev nD) : Pipeline.afterTail₀ cfgs (dats m) 0 (V0 m) [hostOps1] c main_v112
    = Cert.Spec.out (feat m c) (m ((c : Thread nD τ).loc main_arg3)) (m ((c : Thread nD τ).loc main_arg4))
        (m ((c : Thread nD τ).loc main_arg5)) (m ((c : Thread nD τ).loc main_arg6)) := by
  rw [result_eq, arrs_eq]
  exact Garr_is_out _ _ _ _ _

theorem run_out : θ_run defs (onTc (τ := τ) (main (F := Ideal))) ⟨m, fun _ => 0, ρ⟩ (fun r => ∀ c : Dev nD,
      r.2.mem ((c.tc : Thread nD τ).loc main_v112) = Cert.Spec.out (feat m c) (m ((c : Thread nD τ).loc main_arg3)) (m ((c : Thread nD τ).loc main_arg4))
        (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
      (post_out m r h c).trans (result_is_out m c),
      (kept m r h c main_arg0 (by decide) (by decide) (by decide) (by decide)).trans (V_main_arg0 m c),
      (kept m r h c main_arg1 (by decide) (by decide) (by decide) (by decide)).trans (V_main_arg1 m c),
      (kept m r h c main_arg2 (by decide) (by decide) (by decide) (by decide)).trans (V_main_arg2 m c),
      (kept m r h c main_arg3 (by decide) (by decide) (by decide) (by decide)).trans (V_main_arg3 m c),
      (kept m r h c main_arg4 (by decide) (by decide) (by decide) (by decide)).trans (V_main_arg4 m c),
      (kept m r h c main_arg5 (by decide) (by decide) (by decide) (by decide)).trans (V_main_arg5 m c),
      (kept m r h c main_arg6 (by decide) (by decide) (by decide) (by decide)).trans (V_main_arg6 m c)⟩)
    (run_main m ρ)

end Cert.KernelIdeal.Around

end
-- ==== Proof.RefSide.lean ====
/-
  The reference, read one host line at a time, is the specification: its last nine lines (a contraction of the
  features against W1 over 192, the bias row b1 broadcast, the maximum with zero, a contraction against W2 over
  1024, the bias row b2 broadcast) applied to the feature array that its first lines build, which is carried
  here as one unopened term.
-/
import proofs.«429558_j40819369181896_3_alg».proof.Proof.RefRead
import proofs.«429558_j40819369181896_3_alg».proof.Proof.Spec

noncomputable section

namespace Cert.ReferenceIdeal.RefSide

open Cert.ReferenceIdeal Cert.ReferenceIdeal.ReadP Idealize.ShloMosaic Idealize.ShloMosaic.ValueIdx

/-- Row (b, s), hidden unit h, feature k: where the first contraction reads the features. -/
theorem feat_idx (i : S16x1024x8192.Idx) (h : Fin 1024) (k : Fin 192) :
    lidx_main_v106 (lidx_main_v111 i h) k = ix3 (i 0) (i 1) k := by
  funext a; match a with | ⟨0, _⟩ => rfl | ⟨1, _⟩ => rfl | ⟨2, _⟩ => rfl

/-- … and W1. -/
theorem w1_idx (i : S16x1024x8192.Idx) (h : Fin 1024) (k : Fin 192) :
    ridx_main_v106 (lidx_main_v111 i h) k = ix2 k h := by
  funext a; match a with | ⟨0, _⟩ => rfl | ⟨1, _⟩ => rfl

/-- The broadcast bias row b1 at hidden unit h. -/
theorem b1_idx (i : S16x1024x8192.Idx) (h : Fin 1024) :
    idx_main_v107 (idx_main_v108 (lidx_main_v111 i h)) = ix1 h := by
  funext a; match a with | ⟨0, _⟩ => rfl

/-- Where the second contraction reads W2. -/
theorem w2_idx (i : S16x1024x8192.Idx) (h : Fin 1024) :
    ridx_main_v111 i h = ix2 h (i 2) := by
  funext a; match a with | ⟨0, _⟩ => rfl | ⟨1, _⟩ => rfl

/-- The broadcast bias row b2 at column v. -/
theorem b2_idx (i : S16x1024x8192.Idx) :
    idx_main_v112 (idx_main_v113 i) = ix1 (i 2) := by
  funext a; match a with | ⟨0, _⟩ => rfl

/-- The reference's result is the specification at its own feature array. -/
theorem ref_is_out (x0 : (⟨S16x1024, .i32⟩ : BufTy).Contents (Elt Ideal)) (x1 : (⟨S8192x64, .f32⟩ : BufTy).Contents (Elt Ideal))
    (x2 : (⟨S4x65536x32, .f32⟩ : BufTy).Contents (Elt Ideal)) (x3 : (⟨S192x1024, .f32⟩ : BufTy).Contents (Elt Ideal))
    (x4 : (⟨S1024, .f32⟩ : BufTy).Contents (Elt Ideal)) (x5 : (⟨S1024x8192, .f32⟩ : BufTy).Contents (Elt Ideal))
    (x6 : (⟨S8192, .f32⟩ : BufTy).Contents (Elt Ideal)) :
    val_main_v114 (F := Ideal) x0 x1 x2 x3 x4 x5 x6
      = Cert.Spec.out (val_main_v105 (F := Ideal) x0 x1 x2) x3 x4 x5 x6 := by
  funext i
  rw [val_main_v114_apply, val_main_v111_apply, val_main_v113_apply, val_main_v112_apply, b2_idx]
  unfold Cert.Spec.out
  rw [Ideal.addf_def]
  refine congrArg (· + x6 (ix1 (i 2))) (Finset.sum_congr rfl fun h _ => ?_)
  rw [val_main_v110_apply, val_main_v109_apply, val_main_v106_apply, val_main_v108_apply, val_main_v107_apply,
    val_main_call9_v0_apply, val_main_call9_cst_apply, b1_idx, w2_idx, Ideal.addf_def, Ideal.maximumf_def]
  unfold Cert.Spec.hid
  refine congrArg (· * x5 (ix2 h (i 2))) (congrArg (max · _) (congrArg (· + x4 (ix1 h)) (Finset.sum_congr rfl fun k _ => ?_)))
  rw [feat_idx, w1_idx]
  rfl

end Cert.ReferenceIdeal.RefSide

end
-- ==== Proof.lean ====
/-
  The certificate of the hashed-embedding MLP kernel against its reference, over the extended reals.

  Both programs build the same [16, 1024, 192] feature array from the characters (the byte embedding's row and
  four hashed-table rows per position, concatenated) by the same host lines; it is carried as one unopened
  function of the first three arguments. On top of it both compute, at (b, s, v),

      ∑ₕ max(∑_f feat[b, s, f] · W1[f, h] + b1[h], 0) · W2[h, v]  +  b2[v].

  The reference does so by two contractions over whole arrays; the kernel walks the 16384 rows in 64 blocks of
  256, and inside a block the 8192 output columns in 8 chunks of 1024, each chunk one matrix product of the
  block's hidden rows against the chunk's weight columns. The sums are the same sums over the same index sets;
  no law beyond congruence of the sums joins the two sides, so the precondition is never opened. The change
  of float format on the weights and on the hidden rows is the identity over the extended reals.

  The frames: the kernel's two programs run around their one launch (the body's loop goes through by its
  invariant, the eight stored chunks tile the output block); the reference's frame is its run with the result
  dropped. The idealization rewrote nothing, so `preserves` is trivial.
-/
import proofs.«429558_j40819369181896_3_alg».proof.Defs
import proofs.«429558_j40819369181896_3_alg».proof.Proof.K.Frame
import proofs.«429558_j40819369181896_3_alg».proof.Proof.KI.Run
import proofs.«429558_j40819369181896_3_alg».proof.Proof.RefSide
import proofs.«429558_j40819369181896_3_alg».proof.Proof.Gen.Kernel
import proofs.«429558_j40819369181896_3_alg».proof.Proof.Gen.KernelIdeal
import proofs.«429558_j40819369181896_3_alg».proof.Proof.Gen.ReferenceIdeal
import proofs.«429558_j40819369181896_3_alg».proof.Proof.Gen.Pre_finite_inputs
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Around.frame m ρ

theorem frame_ki : Cert.frame_KernelIdeal := fun m ρ _ => Cert.KernelIdeal.Around.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- Both runs end at the specification of the same feature array and the same affine-layer arguments. -/
theorem algebraic : Cert.algebraic_KernelIdeal_ReferenceIdeal := by
  intro m ρ m' ρ' _ hagree
  refine ⟨_, Cert.KernelIdeal.Around.run_out m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v114_eq, Cert.ReferenceIdeal.RefSide.ref_is_out,
    (hagree c).1, (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
